-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S8x2048x1024 .f32) (main_arg1 : FVec F S8x2048x1024 .f32) (main_arg2 : FVec F S8x2048x1024 .f32) (main_arg3 : IVec S8x2048x2048 1) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 27
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .bf16⟩
  | .hbm, ⟨22, _⟩ => ⟨S16384x1024, .bf16⟩
  | .hbm, ⟨23, _⟩ => ⟨S8x2048x1024, .bf16⟩
  | .hbm, ⟨24, _⟩ => ⟨S8x2048x1024, .bf16⟩
  | .hbm, ⟨25, _⟩ => ⟨S8x2048x2048, .i32⟩
  | .hbm, ⟨26, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S1x1024, .f32⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x2048, .i32⟩
  | .local _ .vmem, ⟨21, _⟩ => ⟨S1x256x2048, .i32⟩
  | .local _ .vmem, ⟨22, _⟩ => ⟨S1x256x1024, .f32⟩
  | .local _ .vmem, ⟨23, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S8x2048x1024_S16384x1024 : S8x2048x1024.ShapeCasts S16384x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  natLt_1_32 : 1 < 32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .bf16 = 32 ∨ (Rect.block (s := S16384x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S8x2048x1024.size a
  hwx1_4 : ∀ i : grid1.Coords, EltTy.bits .bf16 = 32 ∨ (Rect.block (s := S8x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S8x2048x2048.size a
  hwx1_5 : ∀ i : grid1.Coords, EltTy.bits .i32 = 32 ∨ (Rect.block (s := S8x2048x2048) S1x256x2048.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x2048x1024.size a
  hwx1_6 : ∀ i : grid1.Coords, EltTy.bits .f32 = 32 ∨ (Rect.block (s := S8x2048x1024) S1x256x1024.size (cc1_transform_6 i) (hinb1_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x2048x1024, .f32⟩
  | .hbm, ⟨11, _⟩ => ⟨S1x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2048, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Attention.lean ====
/-
  Scaled dot-product self-attention with learned projections, stated on the extended reals, index by index.

  For activations x[n, r, ·] of width 1024, a weight matrix w[q, ·] and a bias b[q], a linear layer is
      proj x w b n r q = (∑ k, x[n, r, k] · w[q, k]) + b[q].
  With Q, K, V the three projections of query, key and value, the score of query row i against key row j of batch n is
  the inner product ∑ d, Q[n, i, d] · K[n, j, d], replaced by the fill value −10⁹ wherever the mask bit is set. A row of
  scores is rescaled entry by entry (`scale`), shifted by its maximum, exponentiated, and normalized by the row's sum of
  exponentials (`nrm`: how one exponential and the row sum are combined into a weight); the result at (n, i, e) is the
  weighted sum ∑ j, weight[j] · V[n, j, e].

  `scale` and `nrm` are parameters because the two programs spell them differently: one multiplies a score by 2⁻⁵ and an
  exponential by the reciprocal of the row sum, the other divides a score by √1024 and an exponential by the row sum.
-/
import Idealize.ShloMosaic.PureOps.Ideal
import Idealize.ShloMosaic.Lib.ValueIdx

noncomputable section

namespace Cert.Attn

open Idealize.ShloMosaic Idealize.ShloMosaic.ValueIdx

/-- Activations: batch × sequence × width. -/
abbrev Act : Shape := ⟨3, ![8, 2048, 1024]⟩
/-- The attention mask, and the scores: batch × query row × key row. -/
abbrev Msk : Shape := ⟨3, ![8, 2048, 2048]⟩
/-- A projection's weight matrix: output feature × input feature. -/
abbrev Wgt : Shape := ⟨2, ![1024, 1024]⟩
/-- A projection's bias: output feature. -/
abbrev Bia : Shape := ⟨1, ![1024]⟩

/-- A linear layer: `x · wᵀ + b` at batch `n`, row `r`, output feature `q`. -/
def proj (x : Act.Idx → EReal) (w : Wgt.Idx → EReal) (b : Bia.Idx → EReal) (n : Fin 8) (r : Fin 2048) (q : Fin 1024) : EReal :=
  (∑ k : Fin 1024, x (ix3 n r k) * w (ix2 q k)) + b (ix1 q)

/-- The fill value of masked scores, −10⁹ as an f32 word. -/
def negBig : EReal := Ideal.ofBits .f32 0xCE6E6B28#32

/-- The masked score of query row `i` against key row `j` in batch `n`. -/
def score (Q K : Fin 8 → Fin 2048 → Fin 1024 → EReal) (mask : Msk.Idx → BitVec 1) (n : Fin 8) (i j : Fin 2048) : EReal :=
  Scalar.select (mask (ix3 n i j)) negBig (∑ d : Fin 1024, Q n i d * K n j d)

/-- The maximum of a row, from −∞. -/
def rowMax (t : Fin 2048 → EReal) : EReal := (Finset.univ : Finset (Fin 2048)).fold max ⊥ t

/-- The exponential of a row entry's distance below the row maximum. -/
def expRow (t : Fin 2048 → EReal) (j : Fin 2048) : EReal := Ideal.exp (t j - rowMax t)

/-- The sum of a row's exponentials. -/
def rowSum (t : Fin 2048 → EReal) : EReal := ∑ j : Fin 2048, expRow t j

/-- The row of rescaled masked scores of query row `i` in batch `n`. -/
def scoreRow (scale : EReal → EReal) (query key : Act.Idx → EReal) (mask : Msk.Idx → BitVec 1)
    (Wq : Wgt.Idx → EReal) (bq : Bia.Idx → EReal) (Wk : Wgt.Idx → EReal) (bk : Bia.Idx → EReal)
    (n : Fin 8) (i : Fin 2048) : Fin 2048 → EReal :=
  fun j => scale (score (proj query Wq bq) (proj key Wk bk) mask n i j)

/-- Self-attention: at (n, i, e) the softmax-weighted sum of the value projection's rows. -/
def attn (scale : EReal → EReal) (nrm : EReal → EReal → EReal) (query key value : Act.Idx → EReal) (mask : Msk.Idx → BitVec 1)
    (Wq : Wgt.Idx → EReal) (bq : Bia.Idx → EReal) (Wk : Wgt.Idx → EReal) (bk : Bia.Idx → EReal)
    (Wv : Wgt.Idx → EReal) (bv : Bia.Idx → EReal) : Act.Idx → EReal :=
  fun i =>
    ∑ j : Fin 2048, nrm (expRow (scoreRow scale query key mask Wq bq Wk bk (i 0) (i 1)) j)
        (rowSum (scoreRow scale query key mask Wq bq Wk bk (i 0) (i 1)))
      * proj value Wv bv (i 0) j (i 2)

/-- An extended real that is a real number. -/
def IsReal (x : EReal) : Prop := ∃ r : ℝ, x = (r : EReal)

/-- The kernel's rescaling: the product with 2⁻⁵ as an f32 word. -/
def scaleMul (x : EReal) : EReal := x * Ideal.ofBits .f32 0x3D000000#32
/-- The reference's rescaling: the quotient by the square root of 1024 as an f32 word. -/
def scaleDiv (x : EReal) : EReal := Ideal.div x (Ideal.sqrt (Ideal.ofBits .f32 0x44800000#32))
/-- The kernel's normalization: the product with the reciprocal of the row sum. -/
def nrmRecip (p l : EReal) : EReal := p * Ideal.div (Ideal.ofBits .f32 0x3F800000#32) l
/-- The reference's normalization: the quotient by the row sum. -/
def nrmDiv (p l : EReal) : EReal := Ideal.div p l

end Cert.Attn

end
-- ==== Proof.LibEFinite.lean ====
import Mathlib.Data.EReal.Inv
import Mathlib.Algebra.Order.BigOperators.Group.Finset
import Mathlib.Tactic.Positivity
import Idealize.ShloMosaic.PureOps.Ideal

/-!
# Finiteness through the operations on the extended reals

An extended real is FINITE when it is the coercion of a real number. The arithmetic
of the extended reals has corners at the infinities (∞ − ∞, 0 · ∞, x / 0), and an
identity of real arithmetic holds there only for finite operands; so a comparison of
two programs on the extended reals first needs every intermediate value finite.

This file shows that finiteness passes through each operation the programs use: sums,
products, differences, maxima, finite sums, division by a nonzero real, the
reciprocal square root of a positive real, and the array operations built from them
(contraction, reduction along axes, accumulating scatter, gather). Where a value must
be a legal argument of a reciprocal square root or a divisor, its sign is carried
too: finite and ≥ 0, finite and > 0.
-/

open scoped BigOperators
open Idealize.ShloMosaic

noncomputable section

namespace Cert.EFinite

/-! ### The three predicates -/

/-- An extended real is finite: the coercion of a real number. -/
def IsFin (x : EReal) : Prop := ∃ r : ℝ, x = (r : EReal)

/-- Finite and ≥ 0. -/
def IsNonnegFin (x : EReal) : Prop := ∃ r : ℝ, 0 ≤ r ∧ x = (r : EReal)

/-- Finite and > 0. -/
def IsPosFin (x : EReal) : Prop := ∃ r : ℝ, 0 < r ∧ x = (r : EReal)

/-- A positive finite value is a nonnegative finite value. -/
theorem IsPosFin.isNonnegFin {x : EReal} (h : IsPosFin x) : IsNonnegFin x :=
  let ⟨r, hr, e⟩ := h; ⟨r, hr.le, e⟩

/-- A nonnegative finite value is finite. -/
theorem IsNonnegFin.isFin {x : EReal} (h : IsNonnegFin x) : IsFin x :=
  let ⟨r, _, e⟩ := h; ⟨r, e⟩

/-- A positive finite value is finite. -/
theorem IsPosFin.isFin {x : EReal} (h : IsPosFin x) : IsFin x := h.isNonnegFin.isFin

/-- A finite value is not +∞. -/
theorem IsFin.ne_top {x : EReal} (h : IsFin x) : x ≠ ⊤ := by
  obtain ⟨r, rfl⟩ := h; exact EReal.coe_ne_top r

/-- A finite value is not −∞. -/
theorem IsFin.ne_bot {x : EReal} (h : IsFin x) : x ≠ ⊥ := by
  obtain ⟨r, rfl⟩ := h; exact EReal.coe_ne_bot r

/-- Finite is exactly: neither infinity. -/
theorem isFin_iff {x : EReal} : IsFin x ↔ x ≠ ⊤ ∧ x ≠ ⊥ := by
  refine ⟨fun h => ⟨h.ne_top, h.ne_bot⟩, fun ⟨ht, hb⟩ => ?_⟩
  induction x using EReal.rec with
  | bot => exact absurd rfl hb
  | top => exact absurd rfl ht
  | coe r => exact ⟨r, rfl⟩

/-- A nonnegative finite value is ≥ 0 on the extended reals. -/
theorem IsNonnegFin.nonneg {x : EReal} (h : IsNonnegFin x) : 0 ≤ x := by
  obtain ⟨r, hr, rfl⟩ := h; exact EReal.coe_nonneg.mpr hr

/-- A positive finite value is > 0 on the extended reals, hence nonzero. -/
theorem IsPosFin.pos {x : EReal} (h : IsPosFin x) : 0 < x := by
  obtain ⟨r, hr, rfl⟩ := h; exact EReal.coe_pos.mpr hr

theorem IsPosFin.ne_zero {x : EReal} (h : IsPosFin x) : x ≠ 0 := h.pos.ne'

/-- A finite value that is ≥ 0 is nonnegative finite. -/
theorem IsFin.isNonnegFin {x : EReal} (h : IsFin x) (h0 : 0 ≤ x) : IsNonnegFin x := by
  obtain ⟨r, rfl⟩ := h; exact ⟨r, EReal.coe_nonneg.mp h0, rfl⟩

/-- A finite value that is > 0 is positive finite. -/
theorem IsFin.isPosFin {x : EReal} (h : IsFin x) (h0 : 0 < x) : IsPosFin x := by
  obtain ⟨r, rfl⟩ := h; exact ⟨r, EReal.coe_pos.mp h0, rfl⟩

/-! ### Scalars -/

/-- The coercion of a real is finite. -/
theorem isFin_coe (r : ℝ) : IsFin (r : EReal) := ⟨r, rfl⟩

/-- Zero is finite. -/
theorem isFin_zero : IsFin (0 : EReal) := ⟨0, rfl⟩

/-- One is finite. -/
theorem isFin_one : IsFin (1 : EReal) := ⟨1, rfl⟩

/-- Zero is nonnegative finite. -/
theorem isNonnegFin_zero : IsNonnegFin (0 : EReal) := ⟨0, le_rfl, rfl⟩

/-- One is positive finite. -/
theorem isPosFin_one : IsPosFin (1 : EReal) := ⟨1, one_pos, rfl⟩

/-- The coercion of a nonnegative real is nonnegative finite. -/
theorem isNonnegFin_coe {r : ℝ} (h : 0 ≤ r) : IsNonnegFin (r : EReal) := ⟨r, h, rfl⟩

/-- The coercion of a positive real is positive finite. -/
theorem isPosFin_coe {r : ℝ} (h : 0 < r) : IsPosFin (r : EReal) := ⟨r, h, rfl⟩

/-- The sum of two finite values is finite. -/
theorem IsFin.add {x y : EReal} (hx : IsFin x) (hy : IsFin y) : IsFin (x + y) := by
  obtain ⟨a, rfl⟩ := hx; obtain ⟨b, rfl⟩ := hy; exact ⟨a + b, (EReal.coe_add a b).symm⟩

/-- The product of two finite values is finite. -/
theorem IsFin.mul {x y : EReal} (hx : IsFin x) (hy : IsFin y) : IsFin (x * y) := by
  obtain ⟨a, rfl⟩ := hx; obtain ⟨b, rfl⟩ := hy; exact ⟨a * b, (EReal.coe_mul a b).symm⟩

/-- The negation of a finite value is finite. -/
theorem IsFin.neg {x : EReal} (hx : IsFin x) : IsFin (-x) := by
  obtain ⟨a, rfl⟩ := hx; exact ⟨-a, (EReal.coe_neg a).symm⟩

/-- The difference of two finite values is finite. -/
theorem IsFin.sub {x y : EReal} (hx : IsFin x) (hy : IsFin y) : IsFin (x - y) := by
  obtain ⟨a, rfl⟩ := hx; obtain ⟨b, rfl⟩ := hy; exact ⟨a - b, (EReal.coe_sub a b).symm⟩

/-- The maximum of two finite values is finite: it is one of them. -/
theorem IsFin.max {x y : EReal} (hx : IsFin x) (hy : IsFin y) : IsFin (max x y) := by
  rcases max_choice x y with h | h <;> rw [h] <;> assumption

/-- The minimum of two finite values is finite: it is one of them. -/
theorem IsFin.min {x y : EReal} (hx : IsFin x) (hy : IsFin y) : IsFin (min x y) := by
  rcases min_choice x y with h | h <;> rw [h] <;> assumption

/-- The maximum of a finite value with 0 (a rectifier) is nonnegative finite. -/
theorem IsFin.max_zero_isNonnegFin {x : EReal} (hx : IsFin x) : IsNonnegFin (Max.max x 0) :=
  (hx.max isFin_zero).isNonnegFin (le_max_right _ _)

/-- The sum of two nonnegative finite values is nonnegative finite. -/
theorem IsNonnegFin.add {x y : EReal} (hx : IsNonnegFin x) (hy : IsNonnegFin y) : IsNonnegFin (x + y) := by
  obtain ⟨a, ha, rfl⟩ := hx; obtain ⟨b, hb, rfl⟩ := hy
  exact ⟨a + b, add_nonneg ha hb, (EReal.coe_add a b).symm⟩

/-- The product of two nonnegative finite values is nonnegative finite. -/
theorem IsNonnegFin.mul {x y : EReal} (hx : IsNonnegFin x) (hy : IsNonnegFin y) : IsNonnegFin (x * y) := by
  obtain ⟨a, ha, rfl⟩ := hx; obtain ⟨b, hb, rfl⟩ := hy
  exact ⟨a * b, mul_nonneg ha hb, (EReal.coe_mul a b).symm⟩

/-- A nonnegative finite value plus a positive finite one is positive finite
    (a count ≥ 0 plus one is ≥ 1 > 0). -/
theorem IsNonnegFin.add_isPosFin {x y : EReal} (hx : IsNonnegFin x) (hy : IsPosFin y) : IsPosFin (x + y) := by
  obtain ⟨a, ha, rfl⟩ := hx; obtain ⟨b, hb, rfl⟩ := hy
  exact ⟨a + b, add_pos_of_nonneg_of_pos ha hb, (EReal.coe_add a b).symm⟩

/-- A nonnegative finite value plus one is a real ≥ 1. -/
theorem IsNonnegFin.add_one {x : EReal} (hx : IsNonnegFin x) : ∃ r : ℝ, 1 ≤ r ∧ x + 1 = (r : EReal) := by
  obtain ⟨a, ha, rfl⟩ := hx
  exact ⟨a + 1, by linarith, by rw [EReal.coe_add, EReal.coe_one]⟩

/-- The product of two positive finite values is positive finite. -/
theorem IsPosFin.mul {x y : EReal} (hx : IsPosFin x) (hy : IsPosFin y) : IsPosFin (x * y) := by
  obtain ⟨a, ha, rfl⟩ := hx; obtain ⟨b, hb, rfl⟩ := hy
  exact ⟨a * b, mul_pos ha hb, (EReal.coe_mul a b).symm⟩

/-- The maximum of a finite value with a positive finite one is positive finite
    (a count clamped below by one). -/
theorem IsFin.max_isPosFin {x y : EReal} (hx : IsFin x) (hy : IsPosFin y) : IsPosFin (Max.max x y) :=
  (hx.max hy.isFin).isPosFin (lt_of_lt_of_le hy.pos (le_max_right _ _))

/-! ### Finite sums -/

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- A finite sum of nonnegative finite values is nonnegative finite. -/
theorem isNonnegFin_sum {ι : Type*} (s : Finset ι) (f : ι → EReal) (h : ∀ i ∈ s, IsNonnegFin (f i)) :
    IsNonnegFin (∑ i ∈ s, f i) := by
  classical
  induction s using Finset.induction_on with
  | empty => simpa using isNonnegFin_zero
  | insert a s ha ih =>
    rw [Finset.sum_insert ha]
    exact (h a (Finset.mem_insert_self a s)).add (ih fun i hi => h i (Finset.mem_insert_of_mem hi))

/-- The sum over a whole finite type of finite values is finite. -/
theorem isFin_sum_univ {ι : Type*} [Fintype ι] (f : ι → EReal) (h : ∀ i, IsFin (f i)) : IsFin (∑ i, f i) :=
  isFin_sum _ f fun i _ => h i

/-! ### Division and the reciprocal square root -/

/-- A finite value divided by a nonzero real is finite. -/
theorem IsFin.div_coe {x : EReal} (hx : IsFin x) {y : ℝ} (hy : y ≠ 0) : IsFin (Ideal.div x (y : EReal)) := by
  rw [Ideal.div_coe hy]; exact hx.mul (isFin_coe _)

/-- A finite value divided by a positive finite one is finite. -/
theorem IsFin.div_isPosFin {x y : EReal} (hx : IsFin x) (hy : IsPosFin y) : IsFin (Ideal.div x y) := by
  obtain ⟨b, hb, rfl⟩ := hy; exact hx.div_coe hb.ne'

/-- A nonnegative finite value divided by a positive finite one is nonnegative finite. -/
theorem IsNonnegFin.div_isPosFin {x y : EReal} (hx : IsNonnegFin x) (hy : IsPosFin y) :
    IsNonnegFin (Ideal.div x y) := by
  obtain ⟨b, hb, rfl⟩ := hy
  rw [Ideal.div_coe hb.ne']
  exact hx.mul (isNonnegFin_coe (by positivity))

/-- The reciprocal square root of a positive real x is the real 1/√x. -/
theorem rsqrt_coe_of_pos {x : ℝ} (hx : 0 < x) : Ideal.rsqrt (x : EReal) = (((Real.sqrt x)⁻¹ : ℝ) : EReal) := by
  rw [Ideal.rsqrt_coe, if_neg (not_lt.mpr hx.le), if_neg hx.ne']

/-- The reciprocal square root of a positive finite value is positive finite. -/
theorem IsPosFin.rsqrt {x : EReal} (hx : IsPosFin x) : IsPosFin (Ideal.rsqrt x) := by
  obtain ⟨r, hr, rfl⟩ := hx
  exact ⟨(Real.sqrt r)⁻¹, inv_pos.mpr (Real.sqrt_pos.mpr hr), rsqrt_coe_of_pos hr⟩

/-- The reciprocal square root of (nonnegative finite + positive finite), such as a
    variance plus ε, is positive finite. -/
theorem IsNonnegFin.rsqrt_add_isPosFin {x e : EReal} (hx : IsNonnegFin x) (he : IsPosFin e) :
    IsPosFin (Ideal.rsqrt (x + e)) :=
  (hx.add_isPosFin he).rsqrt

/-! ### Arrays: functions into the extended reals -/

/-- A gather — any reindexing of a finite array — is finite. -/
theorem isFin_gather {α β : Type*} (x : α → EReal) (π : β → α) (hx : ∀ i, IsFin (x i)) :
    ∀ j, IsFin ((fun j => x (π j)) j) := fun j => hx (π j)

/-- Likewise for positive finite arrays. -/
theorem isPosFin_gather {α β : Type*} (x : α → EReal) (π : β → α) (hx : ∀ i, IsPosFin (x i)) :
    ∀ j, IsPosFin ((fun j => x (π j)) j) := fun j => hx (π j)

/-- A contraction with a finite accumulator and finite operands is finite entrywise:
    accumulator plus a finite sum of products. -/
theorem isFin_matmul {sl sr so : Shape} (d : DotDims sl sr so) (lhs : sl.Idx → EReal) (rhs : sr.Idx → EReal)
    (acc : so.Idx → EReal) (hl : ∀ i, IsFin (lhs i)) (hr : ∀ i, IsFin (rhs i)) (ha : ∀ j, IsFin (acc j)) :
    ∀ j, IsFin (Ideal.matmul d lhs rhs acc j) := fun j =>
  (ha j).add (isFin_sum _ _ fun k _ => (hl _).mul (hr _))

/-- The same contraction onto the zero accumulator (a host dot product). -/
theorem isFin_matmul_zero {sl sr so : Shape} (d : DotDims sl sr so) (lhs : sl.Idx → EReal) (rhs : sr.Idx → EReal)
    (hl : ∀ i, IsFin (lhs i)) (hr : ∀ i, IsFin (rhs i)) :
    ∀ j, IsFin (Ideal.matmul d lhs rhs (fun _ => 0) j) :=
  isFin_matmul d lhs rhs _ hl hr fun _ => isFin_zero

/-- A host reduction by addition of finite entries from a finite initial value is finite. -/
theorem isFin_hostReduceAdd {s : Shape} {axes : List (Fin s.rank)} {t : Shape} (h : s.ReducesTo axes t)
    (x : s.Idx → EReal) (init : EReal) (hx : ∀ i, IsFin (x i)) (hi : IsFin init) :
    ∀ j, IsFin (Ideal.hostReduceAdd h x init j) := fun _ =>
  hi.add (isFin_sum _ _ fun i _ => hx i)

/-- A kernel's reduction by addition of finite entries is finite. -/
theorem isFin_reduceAdd {s : Shape} {axes : List (Fin s.rank)} {t : Shape} (h : s.Reduces axes t)
    (x : s.Idx → EReal) (hx : ∀ i, IsFin (x i)) :
    ∀ j, IsFin (Ideal.reduceAdd h x j) := fun _ =>
  isFin_sum _ _ fun i _ => hx i

/-- An accumulating scatter of finite updates onto a finite operand is finite entrywise:
    each operand entry plus a finite sum of updates. -/
theorem isFin_hostScatterAdd {s si su : Shape} (d : ScatterDims s si su) {w : Nat} (x : s.Idx → EReal)
    (idx : IVec si w) (upd : su.Idx → EReal) (hx : ∀ i, IsFin (x i)) (hu : ∀ j, IsFin (upd j)) :
    ∀ i, IsFin (Ideal.hostScatterAdd d x idx upd i) := fun i =>
  (hx i).add (isFin_sum _ _ fun j _ => hu j)

/-- When every update is ≥ 0, an accumulating scatter only raises the operand. -/
theorem le_hostScatterAdd {s si su : Shape} (d : ScatterDims s si su) {w : Nat} (x : s.Idx → EReal)
    (idx : IVec si w) (upd : su.Idx → EReal) (hu : ∀ j, 0 ≤ upd j) :
    ∀ i, x i ≤ Ideal.hostScatterAdd d x idx upd i := fun i =>
  le_add_of_nonneg_right (Finset.sum_nonneg fun j _ => hu j)

/-- An accumulating scatter of nonnegative finite updates onto a nonnegative finite
    operand is nonnegative finite entrywise (ones scattered onto zeros: a count). -/
theorem isNonnegFin_hostScatterAdd {s si su : Shape} (d : ScatterDims s si su) {w : Nat} (x : s.Idx → EReal)
    (idx : IVec si w) (upd : su.Idx → EReal) (hx : ∀ i, IsNonnegFin (x i)) (hu : ∀ j, IsNonnegFin (upd j)) :
    ∀ i, IsNonnegFin (Ideal.hostScatterAdd d x idx upd i) := fun i =>
  (hx i).add (isNonnegFin_sum _ _ fun j _ => hu j)

/-- So a count (nonnegative finite updates scattered onto a nonnegative finite operand)
    plus a positive finite value — a degree plus one for the self-loop — is positive
    finite, a legal argument for a reciprocal square root or a divisor. -/
theorem isPosFin_hostScatterAdd_add {s si su : Shape} (d : ScatterDims s si su) {w : Nat} (x : s.Idx → EReal)
    (idx : IVec si w) (upd : su.Idx → EReal) (hx : ∀ i, IsNonnegFin (x i)) (hu : ∀ j, IsNonnegFin (upd j))
    {c : EReal} (hc : IsPosFin c) :
    ∀ i, IsPosFin (Ideal.hostScatterAdd d x idx upd i + c) := fun i =>
  (isNonnegFin_hostScatterAdd d x idx upd hx hu i).add_isPosFin hc

end Cert.EFinite
-- ==== Proof.AttentionLaws.lean ====
/-
  The laws that join the two spellings of self-attention (Attention.lean).
-/
import proofs.«420657_j64072322122239_3_alg».proof.Proof.Attention
import proofs.«420657_j64072322122239_3_alg».proof.Proof.LibEFinite
import Mathlib.Data.Finset.Fold
import Mathlib.Analysis.SpecialFunctions.Sqrt

noncomputable section

namespace Cert.Attn

open Idealize.ShloMosaic Idealize.ShloMosaic.ValueIdx
open Cert.EFinite

/-! ### The four float words as real numbers -/

/-- The word 0x3D000000 is 2⁻⁵ = 1/32. -/
private theorem ofBits_inv32 : Ideal.ofBits .f32 0x3D000000#32 = (((1 / 32 : ℝ)) : EReal) := by
  simp [Ideal.ofBits, Ideal.ieee, -EReal.coe_mul]; norm_num

/-- The word 0x44800000 is 2¹⁰ = 1024. -/
private theorem ofBits_1024 : Ideal.ofBits .f32 0x44800000#32 = ((1024 : ℝ) : EReal) := by
  simp [Ideal.ofBits, Ideal.ieee, -EReal.coe_mul]; norm_num

/-- The word 0x3F800000 is 1. -/
private theorem ofBits_one : Ideal.ofBits .f32 0x3F800000#32 = 1 := by
  simp [Ideal.ofBits, Ideal.ieee, -EReal.coe_mul]; norm_num

/-- The fill value is a real number: its exponent field is not all ones, so the word denotes
    the negation of a real (−15625000 · 2⁶ = −10⁹). -/
private theorem isFin_negBig : IsFin negBig := by
  unfold negBig
  simp [Ideal.ofBits, Ideal.ieee, -EReal.coe_mul]
  exact (isFin_coe _).neg

/-! ### The two rescalings -/

/-- √1024 = 32, since 32² = 1024. -/
private theorem sqrt_1024 : Real.sqrt 1024 = 32 := by
  rw [show (1024 : ℝ) = 32 ^ 2 by norm_num]
  exact Real.sqrt_sq (by norm_num)

/-- Multiplying by 2⁻⁵ and dividing by √1024 are one function on the extended reals. -/
theorem scaleMul_eq_scaleDiv : scaleMul = scaleDiv := by
  funext x
  unfold scaleMul scaleDiv
  rw [ofBits_inv32, ofBits_1024, Ideal.sqrt_coe, if_neg (by norm_num), sqrt_1024,
    Ideal.div_coe (by norm_num)]

/-- The rescaling by 2⁻⁵ keeps a real number real. -/
private theorem isFin_scaleMul {x : EReal} (hx : IsFin x) : IsFin (scaleMul x) := by
  unfold scaleMul
  rw [ofBits_inv32]
  exact hx.mul (isFin_coe _)

/-! ### Every rescaled score is a real number -/

/-- A linear layer of real arrays is real entrywise: a finite sum of products of reals plus a real. -/
private theorem isFin_proj (x : Act.Idx → EReal) (w : Wgt.Idx → EReal) (b : Bia.Idx → EReal)
    (hx : ∀ i, IsReal (x i)) (hw : ∀ i, IsReal (w i)) (hb : ∀ i, IsReal (b i))
    (n : Fin 8) (r : Fin 2048) (q : Fin 1024) : IsFin (proj x w b n r q) := by
  unfold proj
  exact (isFin_sum_univ _ fun k => IsFin.mul (hx _) (hw _)).add (hb _)

/-- A masked score of real projections is real: either the fill value or a finite sum of products. -/
private theorem isFin_score (Q K : Fin 8 → Fin 2048 → Fin 1024 → EReal)
    (hQ : ∀ n i d, IsFin (Q n i d)) (hK : ∀ n i d, IsFin (K n i d))
    (mask : Msk.Idx → BitVec 1) (n : Fin 8) (i j : Fin 2048) : IsFin (score Q K mask n i j) := by
  unfold score Scalar.select
  split
  · exact isFin_negBig
  · exact isFin_sum_univ _ fun d => (hQ _ _ _).mul (hK _ _ _)

/-- Every entry of a row of rescaled scores is real. -/
private theorem isFin_scoreRow (query key : Act.Idx → EReal) (mask : Msk.Idx → BitVec 1)
    (Wq : Wgt.Idx → EReal) (bq : Bia.Idx → EReal) (Wk : Wgt.Idx → EReal) (bk : Bia.Idx → EReal)
    (hq : ∀ i, IsReal (query i)) (hk : ∀ i, IsReal (key i)) (hWq : ∀ i, IsReal (Wq i)) (hbq : ∀ i, IsReal (bq i))
    (hWk : ∀ i, IsReal (Wk i)) (hbk : ∀ i, IsReal (bk i)) (n : Fin 8) (i j : Fin 2048) :
    IsFin (scoreRow scaleMul query key mask Wq bq Wk bk n i j) := by
  unfold scoreRow
  exact isFin_scaleMul (isFin_score _ _ (fun n r q => isFin_proj query Wq bq hq hWq hbq n r q)
    (fun n r q => isFin_proj key Wk bk hk hWk hbk n r q) mask n i j)

/-! ### The row sum of exponentials is a positive real -/

/-- Folding max from −∞ over real entries yields −∞ (over no entries) or a real. -/
private theorem fold_max_bot_or_isFin {ι : Type*} [DecidableEq ι] (t : ι → EReal) (ht : ∀ j, IsFin (t j))
    (s : Finset ι) : s.fold max ⊥ t = ⊥ ∨ IsFin (s.fold max ⊥ t) := by
  induction s using Finset.induction_on with
  | empty => left; exact Finset.fold_empty
  | insert a s ha ih =>
    right
    rw [Finset.fold_insert ha]
    rcases ih with h | h
    · rw [h, max_bot_right]; exact ht a
    · exact (ht a).max h

/-- The maximum of a row of reals is real: it is at least the row's first entry, so it is not −∞. -/
private theorem isFin_rowMax (t : Fin 2048 → EReal) (ht : ∀ j, IsFin (t j)) : IsFin (rowMax t) := by
  unfold rowMax
  rcases fold_max_bot_or_isFin t ht Finset.univ with h | h
  · exfalso
    have hle : t 0 ≤ (Finset.univ : Finset (Fin 2048)).fold max ⊥ t :=
      (Finset.le_fold_max _).mpr (Or.inr ⟨0, Finset.mem_univ _, le_rfl⟩)
    rw [h] at hle
    exact (ht 0).ne_bot (le_bot_iff.mp hle)
  · exact h

/-- Each exponential of a row of reals is a positive real: the exponential of a real difference. -/
private theorem isPosFin_expRow (t : Fin 2048 → EReal) (ht : ∀ j, IsFin (t j)) (j : Fin 2048) :
    IsPosFin (expRow t j) := by
  unfold expRow
  obtain ⟨r, hr⟩ := (ht j).sub (isFin_rowMax t ht)
  rw [hr, Ideal.exp_coe]
  exact isPosFin_coe (Real.exp_pos r)

/-- The sum of a row's exponentials is a positive real: the first term is positive, the others nonnegative. -/
private theorem isPosFin_rowSum (t : Fin 2048 → EReal) (ht : ∀ j, IsFin (t j)) : IsPosFin (rowSum t) := by
  unfold rowSum
  rw [← Finset.sum_erase_add _ _ (Finset.mem_univ (0 : Fin 2048))]
  exact (isNonnegFin_sum _ _ fun j _ => (isPosFin_expRow t ht j).isNonnegFin).add_isPosFin
    (isPosFin_expRow t ht 0)

/-! ### The two normalizations -/

/-- Off a zero row sum, the product with the reciprocal and the quotient are both p · l⁻¹. -/
private theorem nrmRecip_eq_nrmDiv (p : EReal) {l : EReal} (hl : l ≠ 0) : nrmRecip p l = nrmDiv p l := by
  unfold nrmRecip nrmDiv Ideal.div
  rw [if_neg hl, if_neg hl, ofBits_one, one_mul]

/-- Where query, key and the two projections that make the scores hold real numbers, every row of scores has a nonzero
    sum of exponentials, so weighting by the reciprocal of the row sum and dividing by the row sum agree. -/
theorem attn_recip_eq_div (query key value : Act.Idx → EReal) (mask : Msk.Idx → BitVec 1)
    (Wq : Wgt.Idx → EReal) (bq : Bia.Idx → EReal) (Wk : Wgt.Idx → EReal) (bk : Bia.Idx → EReal)
    (Wv : Wgt.Idx → EReal) (bv : Bia.Idx → EReal)
    (hq : ∀ i, IsReal (query i)) (hk : ∀ i, IsReal (key i)) (hWq : ∀ i, IsReal (Wq i)) (hbq : ∀ i, IsReal (bq i))
    (hWk : ∀ i, IsReal (Wk i)) (hbk : ∀ i, IsReal (bk i)) :
    attn scaleMul nrmRecip query key value mask Wq bq Wk bk Wv bv = attn scaleMul nrmDiv query key value mask Wq bq Wk bk Wv bv := by
  funext i
  simp only [attn]
  refine Finset.sum_congr rfl fun j _ => ?_
  rw [nrmRecip_eq_nrmDiv _
    (isPosFin_rowSum _ (isFin_scoreRow query key mask Wq bq Wk bk hq hk hWq hbq hWk hbk (i 0) (i 1))).ne_zero]

end Cert.Attn

end
-- ==== Proof.FiniteInputs.lean ====
/-
  The precondition read: every float input holds real numbers.
-/
import proofs.«420657_j64072322122239_3_alg».proof.Pre_finite_inputs
import proofs.«420657_j64072322122239_3_alg».proof.Proof.Gen.Pre_finite_inputs
import proofs.«420657_j64072322122239_3_alg».proof.Proof.Attention
import Idealize.ShloMosaic.Lib.ReduceAll

noncomputable section

namespace Cert.FiniteInputs

open Idealize.ShloMosaic Cert.Pre_finite_inputs

/-- The scalar shape has exactly one index. -/
private instance : Subsingleton S_.Idx := ⟨fun a b => funext fun d => d.elim0⟩

/-- The f32 word with all exponent bits set and no fraction bit denotes the positive infinity. -/
private theorem inf_word : Ideal.ofBits .f32 0x7F800000#32 = (⊤ : EReal) := by
  simp [Ideal.ofBits, Ideal.ieee]

/-- An extended real whose absolute value compares below the positive infinity is a real number: at either infinity the
    absolute value is the positive infinity, which is not below itself. -/
private theorem isReal_of_abs_olt_inf (x : EReal)
    (h : Ideal.cmp .olt (max x (-x)) (Ideal.ofBits .f32 0x7F800000#32) = 1#1) : Cert.Attn.IsReal x := by
  rw [inf_word] at h
  induction x using EReal.rec with
  | bot => exact absurd h (by simp [Ideal.cmp])
  | top => exact absurd h (by simp [Ideal.cmp])
  | coe r => exact ⟨r, rfl⟩

/-- If the conjunction over all indices of "the absolute value is below the positive infinity" is one, every entry
    of the array is a real number. -/
private theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : Cert.Attn.IsReal (x i) :=
  isReal_of_abs_olt_inf (x i) (Host.reduce_andi_all _ _ hr hu j h i)

/-- If the printed precondition is all ones on the argument arrays, then query, key, and the weights and biases of the
    query and key projections hold real numbers at every index. -/
theorem real_of_pre [Cert.Pre_finite_inputs.Facts]
    (a0 a1 a2 : FVec Ideal S8x2048x1024 .f32) (a3 : IVec S8x2048x2048 1) (a4 : FVec Ideal S1024x1024 .f32) (a5 : FVec Ideal S1024 .f32)
    (a6 : FVec Ideal S1024x1024 .f32) (a7 : FVec Ideal S1024 .f32) (a8 : FVec Ideal S1024x1024 .f32) (a9 : FVec Ideal S1024 .f32)
    (h : Cert.Pre_finite_inputs.fn (F := Ideal) a0 a1 a2 a3 a4 a5 a6 a7 a8 a9 = fun _ => 1#1) :
    (∀ i, Cert.Attn.IsReal (a0 i)) ∧ (∀ i, Cert.Attn.IsReal (a1 i)) ∧ (∀ i, Cert.Attn.IsReal (a4 i)) ∧ (∀ i, Cert.Attn.IsReal (a5 i))
      ∧ (∀ i, Cert.Attn.IsReal (a6 i)) ∧ (∀ i, Cert.Attn.IsReal (a7 i)) := by
  have h0 := congrFun h ValueIdx.ix0
  dsimp only [fn, fn_part1, fn_part2] at h0
  -- the result is the conjunction of nine reductions, one per float argument (the fourth argument is an array of
  -- one-bit integers and contributes none), associated to the left: peel the conjuncts off from the right, the last argument's
  -- first, keeping the six the conclusion speaks of
  obtain ⟨h0, -⟩ := IntOp.andi_eq_one.1 h0
  obtain ⟨h0, -⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, -⟩ := IntOp.andi_eq_one.1 h0
  obtain ⟨h0, h1⟩ := IntOp.andi_eq_one.1 h0
  exact ⟨real_of_all a0 _ _ _ _ h0, real_of_all a1 _ _ _ _ h1, real_of_all a4 _ _ _ _ h4, real_of_all a5 _ _ _ _ h5,
    real_of_all a6 _ _ _ _ h6, real_of_all a7 _ _ _ _ h7⟩

end Cert.FiniteInputs

end
-- ==== Proof.RefAttention.lean ====
/-
  The reference program's result, stage by stage, is self-attention as Attention.lean states it, with the reference's own
  spellings of the rescaling (division by √1024) and of the normalization (division by the row sum).
-/
import proofs.«420657_j64072322122239_3_alg».proof.Proof.Gen.ReferenceIdeal.Read
import proofs.«420657_j64072322122239_3_alg».proof.Proof.Attention
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read

section Stages

variable (x0 x1 x2 : (⟨S8x2048x1024, .f32⟩ : BufTy).Contents (Elt Ideal)) (x3 : (⟨S8x2048x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))

/-- The query projection: the first linear layer at (n, r, q). -/
private theorem q_eq (n : Fin 8) (r : Fin 2048) (q : Fin 1024) :
    val_main_v3 (F := Ideal) x0 x4 x5 (ix3 n r q) = Cert.Attn.proj x0 x4 x5 n r q := by
  rw [val_main_v3_apply, val_main_v0_apply, val_main_v2_apply, val_main_v1_apply]
  unfold Cert.Attn.proj
  show _ + _ = _ + _
  congr 1
  · refine Finset.sum_congr rfl fun k _ => ?_
    have e1 : lidx_main_v0 (ix3 n r q) k = ix3 n r k :=
      funext fun a => Fin.ext (by match a with | ⟨0, _⟩ => rfl | ⟨1, _⟩ => rfl | ⟨2, _⟩ => rfl)
    have e2 : ridx_main_v0 (ix3 n r q) k = ix2 q k :=
      funext fun a => Fin.ext (by match a with | ⟨0, _⟩ => rfl | ⟨1, _⟩ => rfl)
    rw [e1, e2]
  · exact congrArg x5 (funext fun a => Fin.ext (by match a with | ⟨0, _⟩ => rfl))

/-- The key projection: the second linear layer at (n, r, q). -/
private theorem k_eq (n : Fin 8) (r : Fin 2048) (q : Fin 1024) :
    val_main_v7 (F := Ideal) x1 x6 x7 (ix3 n r q) = Cert.Attn.proj x1 x6 x7 n r q := by
  rw [val_main_v7_apply, val_main_v4_apply, val_main_v6_apply, val_main_v5_apply]
  unfold Cert.Attn.proj
  show _ + _ = _ + _
  congr 1
  · refine Finset.sum_congr rfl fun k _ => ?_
    have e1 : lidx_main_v4 (ix3 n r q) k = ix3 n r k :=
      funext fun a => Fin.ext (by match a with | ⟨0, _⟩ => rfl | ⟨1, _⟩ => rfl | ⟨2, _⟩ => rfl)
    have e2 : ridx_main_v4 (ix3 n r q) k = ix2 q k :=
      funext fun a => Fin.ext (by match a with | ⟨0, _⟩ => rfl | ⟨1, _⟩ => rfl)
    rw [e1, e2]
  · exact congrArg x7 (funext fun a => Fin.ext (by match a with | ⟨0, _⟩ => rfl))

/-- The value projection: the third linear layer at (n, r, q). -/
private theorem v_eq (n : Fin 8) (r : Fin 2048) (q : Fin 1024) :
    val_main_v11 (F := Ideal) x2 x8 x9 (ix3 n r q) = Cert.Attn.proj x2 x8 x9 n r q := by
  rw [val_main_v11_apply, val_main_v8_apply, val_main_v10_apply, val_main_v9_apply]
  unfold Cert.Attn.proj
  show _ + _ = _ + _
  congr 1
  · refine Finset.sum_congr rfl fun k _ => ?_
    have e1 : lidx_main_v8 (ix3 n r q) k = ix3 n r k :=
      funext fun a => Fin.ext (by match a with | ⟨0, _⟩ => rfl | ⟨1, _⟩ => rfl | ⟨2, _⟩ => rfl)
    have e2 : ridx_main_v8 (ix3 n r q) k = ix2 q k :=
      funext fun a => Fin.ext (by match a with | ⟨0, _⟩ => rfl | ⟨1, _⟩ => rfl)
    rw [e1, e2]
  · exact congrArg x9 (funext fun a => Fin.ext (by match a with | ⟨0, _⟩ => rfl))

/-- The masked score at (n, i, j): the inner product of query row i and key row j, or the fill value where the mask is set. -/
private theorem score_eq (n : Fin 8) (i j : Fin 2048) :
    val_main_v13 (F := Ideal) x0 x1 x3 x4 x5 x6 x7 (ix3 n i j)
      = Cert.Attn.score (Cert.Attn.proj x0 x4 x5) (Cert.Attn.proj x1 x6 x7) x3 n i j := by
  rw [val_main_v13_apply, val_main_call0_v1_apply, val_main_call0_v0_apply, val_main_cst_apply, val_main_v12_apply]
  unfold Cert.Attn.score Cert.Attn.negBig
  refine congrArg (Scalar.select (x3 (ix3 n i j)) (Ideal.ofBits .f32 0xCE6E6B28#32)) ?_
  refine Finset.sum_congr rfl fun d _ => ?_
  have e1 : lidx_main_v12 (ix3 n i j) d = ix3 n i d :=
    funext fun a => Fin.ext (by match a with | ⟨0, _⟩ => rfl | ⟨1, _⟩ => rfl | ⟨2, _⟩ => rfl)
  have e2 : ridx_main_v12 (ix3 n i j) d = ix3 n j d :=
    funext fun a => Fin.ext (by match a with | ⟨0, _⟩ => rfl | ⟨1, _⟩ => rfl | ⟨2, _⟩ => rfl)
  rw [e1, e2, q_eq, k_eq]

/-- The rescaled masked score at (n, i, j): the score divided by the square root of 1024. -/
private theorem scaled_eq (n : Fin 8) (i j : Fin 2048) :
    val_main_v16 (F := Ideal) x0 x1 x3 x4 x5 x6 x7 (ix3 n i j)
      = Cert.Attn.scoreRow Cert.Attn.scaleDiv x0 x1 x3 x4 x5 x6 x7 n i j := by
  rw [val_main_v16_apply, val_main_v15_apply, val_main_v14_apply, val_main_cst_0_apply, score_eq]
  rfl

/-- The reduced index (n, i) with key row k put back on the last axis is (n, i, k). -/
private theorem lift_row (h : S8x2048x2048.Reduces [2] S8x2048) (n : Fin 8) (i : Fin 2048) (k : Fin (S8x2048x2048.size 2)) :
    h.lift (ix2 n i) k = ix3 n i (⟨k.val, k.isLt⟩ : Fin 2048) := by
  funext c
  apply Fin.ext
  match c with
  | ⟨0, _⟩ => rfl
  | ⟨1, _⟩ => rfl
  | ⟨2, _⟩ => rfl

/-- The row maximum at (n, i): the maximum, from −∞, of the row of rescaled scores. -/
private theorem max_eq (n : Fin 8) (i : Fin 2048) :
    val_main_v19 (F := Ideal) x0 x1 x3 x4 x5 x6 x7 (ix2 n i)
      = Cert.Attn.rowMax (Cert.Attn.scoreRow Cert.Attn.scaleDiv x0 x1 x3 x4 x5 x6 x7 n i) := by
  have h : S8x2048x2048.Reduces [2] S8x2048 := by decide
  have hb : Ideal.ofBits .f32 0xFF800000#32 = (⊥ : EReal) := by simp [Ideal.ofBits, Ideal.ieee]
  have hf : (val_main_v16 (F := Ideal) x0 x1 x3 x4 x5 x6 x7 ∘ h.lift (ix2 n i))
      = Cert.Attn.scoreRow Cert.Attn.scaleDiv x0 x1 x3 x4 x5 x6 x7 n i :=
    funext fun k => by
      show val_main_v16 (F := Ideal) x0 x1 x3 x4 x5 x6 x7 (h.lift (ix2 n i) k) = _
      rw [lift_row h n i k, scaled_eq]
      rfl
  rw [val_main_v19_apply, val_main_v18_apply, val_main_cst_2_apply]
  unfold val_main_v17
  rw [Host.reduce_eq_fold_single FloatOps.maximumf _ _ reducesTo_S8x2048x2048_S8x2048_d2 h h_S_, val_main_cst_1_apply, hf]
  unfold Cert.Attn.rowMax
  rw [Ideal.ofBits_def, hb]
  show max (⊥ : EReal) (Finset.fold max ⊥ _ _) = Finset.fold max ⊥ _ _
  exact max_eq_right bot_le

/-- The exponential at (n, i, j): of the rescaled score's distance below its row's maximum. -/
private theorem exp_eq (n : Fin 8) (i j : Fin 2048) :
    val_main_v23 (F := Ideal) x0 x1 x3 x4 x5 x6 x7 (ix3 n i j)
      = Cert.Attn.expRow (Cert.Attn.scoreRow Cert.Attn.scaleDiv x0 x1 x3 x4 x5 x6 x7 n i) j := by
  have e : idx_main_v20 (idx_main_v21 (ix3 n i j)) = ix2 n i :=
    funext fun a => Fin.ext (by match a with | ⟨0, _⟩ => rfl | ⟨1, _⟩ => rfl)
  rw [val_main_v23_apply, val_main_v22_apply, val_main_v21_apply, val_main_v20_apply, e, max_eq, scaled_eq]
  rfl

/-- The row sum at (n, i): zero plus the sum of the row's exponentials. -/
private theorem sum_eq (n : Fin 8) (i : Fin 2048) :
    val_main_v24 (F := Ideal) x0 x1 x3 x4 x5 x6 x7 (ix2 n i)
      = Cert.Attn.rowSum (Cert.Attn.scoreRow Cert.Attn.scaleDiv x0 x1 x3 x4 x5 x6 x7 n i) := by
  rw [val_main_v24_apply, val_main_cst_3_apply, Ideal.ofBits_def, Ideal.ofBits_zero_f32, zero_add]
  unfold Cert.Attn.rowSum
  refine Finset.sum_congr rfl fun k _ => ?_
  have e : idx_main_v24 (ix2 n i) k = ix3 n i k :=
    funext fun a => Fin.ext (by match a with | ⟨0, _⟩ => rfl | ⟨1, _⟩ => rfl | ⟨2, _⟩ => rfl)
  rw [e, exp_eq]

/-- The attention weight at (n, i, j): the exponential divided by its row's sum. -/
private theorem weight_eq (n : Fin 8) (i j : Fin 2048) :
    val_main_v27 (F := Ideal) x0 x1 x3 x4 x5 x6 x7 (ix3 n i j)
      = Cert.Attn.nrmDiv (Cert.Attn.expRow (Cert.Attn.scoreRow Cert.Attn.scaleDiv x0 x1 x3 x4 x5 x6 x7 n i) j)
          (Cert.Attn.rowSum (Cert.Attn.scoreRow Cert.Attn.scaleDiv x0 x1 x3 x4 x5 x6 x7 n i)) := by
  have e : idx_main_v25 (idx_main_v26 (ix3 n i j)) = ix2 n i :=
    funext fun a => Fin.ext (by match a with | ⟨0, _⟩ => rfl | ⟨1, _⟩ => rfl)
  rw [val_main_v27_apply, val_main_v26_apply, val_main_v25_apply, e, sum_eq, exp_eq]
  rfl

end Stages

/-- The reference's last stage, as a function of the ten argument arrays, is `attn scaleDiv nrmDiv` of them. -/
theorem result_eq (x0 x1 x2 : (⟨S8x2048x1024, .f32⟩ : BufTy).Contents (Elt Ideal)) (x3 : (⟨S8x2048x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) :
    val_main_v28 (F := Ideal) x0 x1 x2 x3 x4 x5 x6 x7 x8 x9
      = Cert.Attn.attn Cert.Attn.scaleDiv Cert.Attn.nrmDiv x0 x1 x2 x3 x4 x5 x6 x7 x8 x9 := by
  funext i
  obtain ⟨n, r, e, rfl⟩ : ∃ (n : Fin 8) (r : Fin 2048) (e : Fin 1024), i = ValueIdx.ix3 n r e :=
    ⟨i 0, i 1, i 2, ValueIdx.eq_ix3 i⟩
  rw [val_main_v28_apply]
  unfold Cert.Attn.attn
  refine Finset.sum_congr rfl fun k _ => ?_
  have e1 : lidx_main_v28 (ix3 n r e) k = ix3 n r k :=
    funext fun a => Fin.ext (by match a with | ⟨0, _⟩ => rfl | ⟨1, _⟩ => rfl | ⟨2, _⟩ => rfl)
  have e2 : ridx_main_v28 (ix3 n r e) k = ix3 n k e :=
    funext fun a => Fin.ext (by match a with | ⟨0, _⟩ => rfl | ⟨1, _⟩ => rfl | ⟨2, _⟩ => rfl)
  rw [e1, e2, weight_eq, v_eq]

end Cert.ReferenceIdeal.RefValue

end
-- ==== Proof.KernelMatmul.lean ====
/-
  The kernel's four matrix products read at an index, on the extended reals: into a zero accumulator each is the plain sum,
  over the contracted coordinate, of the products of the two operands' entries.
    rows × [1024, 1024] :  (l · r)[p, q] = ∑ k, l[p, k] · r[k, q]      (the three projections, blocks of 512 and 256 rows)
    query block × keysᵀ  :  (l · rᵀ)[p, j] = ∑ k, l[p, k] · r[j, k]     (the scores of 256 query rows against 2048 keys)
    weights × values     :  (l · r)[p, e] = ∑ j, l[p, j] · r[j, e]      (256 rows of weights against 2048 value rows)
-/
import proofs.«420657_j64072322122239_3_alg».proof.Proof.Gen.KernelIdeal
import Idealize.ShloMosaic.PureOps.Ideal.Laws
import Idealize.ShloMosaic.Lib.ValueIdx

noncomputable section

namespace Cert.KernelIdeal.MatmulAt

open Cert.KernelIdeal Cert.KernelIdeal.Gen Idealize.ShloMosaic Idealize.ShloMosaic.ValueIdx

/-! ## A block of 512 rows against a [1024, 1024] matrix -/

theorem lhsA_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsA_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsA_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsA_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of a 512-row block times a square matrix. -/
theorem rows512_apply (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhsA_0 _ _
    | ⟨1, _⟩ => exact (lhsA_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

/-! ## A block of 256 rows against a [1024, 1024] matrix -/

theorem lhsB_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsB_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsB_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsB_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (p, q) of a 256-row block times a square matrix. -/
theorem rows256_apply (l : FVec Ideal S256x1024 .bf16) (r : FVec Ideal S1024x1024 .bf16) (p : Fin 256) (q : Fin 1024) :
    matmul dot_S256x1024_S1024x1024_S256x1024_1_0_0_1_n_n none l r (constant S256x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhsB_0 _ _
    | ⟨1, _⟩ => exact (lhsB_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhsB_0 _ _).trans hk
    | ⟨1, _⟩ => exact rhsB_1 _ _)
  rw [el, er]

/-! ## 256 query rows against 2048 key rows, both of width 1024, contracted along the width -/

theorem lhsC_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhsC_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhsC_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhsC_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- Entry (p, j) of the scores: query row p against key row j. -/
theorem scores_apply (l : FVec Ideal S256x1024 .bf16) (r : FVec Ideal S2048x1024 .bf16) (p : Fin 256) (j : Fin 2048) :
    matmul dot_S256x1024_S2048x1024_S256x2048_1_1_0_0_n_n none l r (constant S256x2048 .f32 0x00000000#32) (ix2 p j)
      = ∑ k : Fin 1024, l (ix2 p k) * r (ix2 j k) := by
  simp only [matmul]
  rw [Ideal.matmul_constant_zero_apply, ← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ix2 p j) ((ValueIdx.contrEquiv1 dot_S256x1024_S2048x1024_S256x2048_1_1_0_0_n_n 1024 rfl rfl).symm k) = ix2 p k := funext fun a => Fin.ext (by
    match a with
    | ⟨0, _⟩ => exact lhsC_0 _ _
    | ⟨1, _⟩ => exact (lhsC_1 _ _).trans hk)
  have er : dot_S256x1024_S2048x1024_S256x2048_1_1_0_0_n_n.rhsIdx (ix2 p j) ((ValueIdx.contrEquiv1 dot_S256x1024_S2048x1024_S256x2048_1_1_0_0_n_n 1024 rfl rfl).symm k) = ix2 j k := funext fun a => Fin.ext (by
    match a with
    | ⟨0, _⟩ => exact rhsC_0 _ _
    | ⟨1, _⟩ => exact (rhsC_1 _ _).trans hk)
  rw [el, er]

/-! ## 256 rows of weights over 2048 keys against the 2048 value rows -/

theorem lhsD_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhsD_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhsD_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhsD_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Entry (p, e) of the weighted sum of value rows. -/
theorem weighted_apply (l : FVec Ideal S256x2048 .bf16) (r : FVec Ideal S2048x1024 .bf16) (p : Fin 256) (e : Fin 1024) :
    matmul dot_S256x2048_S2048x1024_S256x1024_1_0_0_1_n_n none l r (constant S256x1024 .f32 0x00000000#32) (ix2 p e)
      = ∑ j : Fin 2048, l (ix2 p j) * r (ix2 j e) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p e) ((ValueIdx.contrEquiv1 dot_S256x2048_S2048x1024_S256x1024_1_0_0_1_n_n 2048 rfl rfl).symm k) = ix2 p k := funext fun a => Fin.ext (by
    match a with
    | ⟨0, _⟩ => exact lhsD_0 _ _
    | ⟨1, _⟩ => exact (lhsD_1 _ _).trans hk)
  have er : dot_S256x2048_S2048x1024_S256x1024_1_0_0_1_n_n.rhsIdx (ix2 p e) ((ValueIdx.contrEquiv1 dot_S256x2048_S2048x1024_S256x1024_1_0_0_1_n_n 2048 rfl rfl).symm k) = ix2 k e := funext fun a => Fin.ext (by
    match a with
    | ⟨0, _⟩ => exact (rhsD_0 _ _).trans hk
    | ⟨1, _⟩ => exact rhsD_1 _ _)
  rw [el, er]

end Cert.KernelIdeal.MatmulAt

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelPayload.lean ====
/-
  The kernel bodies' values at an index, on the extended reals.

  Projection body (512 rows at a time): the stored block at (p, q) is (∑ k, x[p, k] · w[k, q]) + b[0, q].
  Attention body (256 query rows of one batch at a time), written as three steps:
    the query block's projection            q[p, d] = (∑ m, x[0, p, m] · w[m, d]) + b[0, d];
    the masked, rescaled scores             s[p, j] = (mask[0, p, j] ≠ 0 ? −10⁹ : ∑ d, q[p, d] · k[0, j, d]) · 2⁻⁵;
    the softmax weights of a row            e[p, j] · (1 / ∑ j', e[p, j'])  with  e[p, j] = exp (s[p, j] − max j', s[p, j']);
  and the stored block at (0, p, e) is ∑ j, weight[p, j] · v[0, j, e].
-/
import proofs.«420657_j64072322122239_3_alg».proof.Proof.Gen.KernelIdeal.Skeleton
import proofs.«420657_j64072322122239_3_alg».proof.Proof.KernelMatmul
import proofs.«420657_j64072322122239_3_alg».proof.Proof.Attention
import proofs.«420657_j64072322122239_3_alg».proof.Proof.LibKeepdims
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx

/-! ## The projection bodies -/

/-- The key projection's stored block at (p, q). -/
theorem projK_apply (x : Vec Ideal S512x1024 .f32) (w : Vec Ideal S1024x1024 .bf16) (b : Vec Ideal S1x1024 .f32) (p : Fin 512) (q : Fin 1024) :
    k0_pay1 x w b (ix2 p q) = (∑ k : Fin 1024, x (ix2 p k) * w (ix2 k q)) + b (ix2 (0 : Fin 1) q) := by
  unfold k0_pay1
  simp only [shapeCast_self]
  show (matmul dot_S512x1024_S1024x1024_S512x1024_1_0_0_1_n_n none (truncf .bf16 (x : FVec Ideal S512x1024 .f32) bitsLt_bf16_f32) (w : FVec Ideal S1024x1024 .bf16) (constant S512x1024 .f32 0x00000000#32) : FVec Ideal S512x1024 .f32) (ix2 p q)
      + (broadcastTo S512x1024 (b : FVec Ideal S1x1024 .f32) broadcasts_S1x1024_S512x1024 : FVec Ideal S512x1024 .f32) (ix2 p q) = _
  rw [MatmulAt.rows512_apply, broadcastTo_1b_ab_apply]
  rfl

/-- The value projection's stored block at (p, q). -/
theorem projV_apply (x : Vec Ideal S512x1024 .f32) (w : Vec Ideal S1024x1024 .bf16) (b : Vec Ideal S1x1024 .f32) (p : Fin 512) (q : Fin 1024) :
    k0_pay2 x w b (ix2 p q) = (∑ k : Fin 1024, x (ix2 p k) * w (ix2 k q)) + b (ix2 (0 : Fin 1) q) := by
  unfold k0_pay2
  simp only [shapeCast_self]
  show (matmul dot_S512x1024_S1024x1024_S512x1024_1_0_0_1_n_n none (truncf .bf16 (x : FVec Ideal S512x1024 .f32) bitsLt_bf16_f32) (w : FVec Ideal S1024x1024 .bf16) (constant S512x1024 .f32 0x00000000#32) : FVec Ideal S512x1024 .f32) (ix2 p q)
      + (broadcastTo S512x1024 (b : FVec Ideal S1x1024 .f32) broadcasts_S1x1024_S512x1024 : FVec Ideal S512x1024 .f32) (ix2 p q) = _
  rw [MatmulAt.rows512_apply, broadcastTo_1b_ab_apply]
  rfl

/-! ## The attention body, step by step -/

/-- The query block's projection. -/
def qBlk (x0 : Vec Ideal S1x256x1024 .f32) (w : Vec Ideal S1024x1024 .bf16) (b : Vec Ideal S1x1024 .f32) : FVec Ideal S256x1024 .bf16 :=
  have v1 : FVec Ideal S256x1024 .f32 := shapeCast S256x1024 x0 shapeCasts_S1x256x1024_S256x1024
  have v2 : FVec Ideal S256x1024 .bf16 := truncf .bf16 v1 bitsLt_bf16_f32
  have v4 : FVec Ideal S1024x1024 .bf16 := shapeCast S1024x1024 w shapeCasts_S1024x1024_S1024x1024
  have cst : FVec Ideal S256x1024 .f32 := constant S256x1024 .f32 0x00000000#32
  have v5 : FVec Ideal S256x1024 .f32 := matmul dot_S256x1024_S1024x1024_S256x1024_1_0_0_1_n_n none v2 v4 cst
  have v7 : FVec Ideal S1x1024 .f32 := shapeCast S1x1024 b shapeCasts_S1x1024_S1x1024
  have v8 : FVec Ideal S256x1024 .f32 := broadcastTo S256x1024 v7 broadcasts_S1x1024_S256x1024
  have v9 : FVec Ideal S256x1024 .f32 := addf v5 v8
  truncf .bf16 v9 bitsLt_bf16_f32

/-- The masked scores of the query block against every key row, rescaled. -/
def sBlk (q : FVec Ideal S256x1024 .bf16) (kk : Vec Ideal S1x2048x1024 .bf16) (msk : Vec Ideal S1x256x2048 .i32) : FVec Ideal S256x2048 .f32 :=
  have v12 : FVec Ideal S2048x1024 .bf16 := shapeCast S2048x1024 kk shapeCasts_S1x2048x1024_S2048x1024
  have v16 : IVec S256x2048 32 := shapeCast S256x2048 msk shapeCasts_S1x256x2048_S256x2048
  have cst_15 : IVec S256x2048 32 := constantI S256x2048 32 0#32
  have v17 : IVec S256x2048 1 := cmpi .ne v16 cst_15
  have cst_16 : FVec Ideal S256x2048 .f32 := constant S256x2048 .f32 0x00000000#32
  have v18 : FVec Ideal S256x2048 .f32 := matmul dot_S256x1024_S2048x1024_S256x2048_1_1_0_0_n_n none q v12 cst_16
  have cst_17 : Ideal .f32 := Scalar.ofBits .f32 0xCE6E6B28#32
  have v19 : FVec Ideal S256x2048 .f32 := broadcast S256x2048 cst_17
  have v20 : FVec Ideal S256x2048 .f32 := select v17 v19 v18
  have cst_18 : Ideal .f32 := Scalar.ofBits .f32 0x3D000000#32
  have v21 : FVec Ideal S256x2048 .f32 := broadcast S256x2048 cst_18
  mulf v20 v21

/-- A block of scores turned into softmax weights, row by row. -/
def wBlk (v22 : FVec Ideal S256x2048 .f32) : FVec Ideal S256x2048 .f32 :=
  have v23 : FVec Ideal S256 .f32 := multiReduction .maximumf [1] S256 v22 0xFF800000#32 reduces_S256x2048_S256 (.inl rfl) rfl
  have v24 : FVec Ideal S256x1 .f32 := shapeCast S256x1 v23 shapeCasts_S256_S256x1
  have v25 : FVec Ideal S256x2048 .f32 := broadcastTo S256x2048 v24 broadcasts_S256x1_S256x2048
  have v26 : FVec Ideal S256x2048 .f32 := subf v22 v25
  have v27 : FVec Ideal S256x2048 .f32 := exp v26
  have v28 : FVec Ideal S256 .f32 := multiReduction .add [1] S256 v27 0x00000000#32 reduces_S256x2048_S256 (.inl rfl) rfl
  have v29 : FVec Ideal S256x1 .f32 := shapeCast S256x1 v28 shapeCasts_S256_S256x1
  have cst_21 : Ideal .f32 := Scalar.ofBits .f32 0x3F800000#32
  have v30 : FVec Ideal S256x1 .f32 := broadcast S256x1 cst_21
  have v31 : FVec Ideal S256x1 .f32 := divf v30 v29
  have v32 : FVec Ideal S256x2048 .f32 := broadcastTo S256x2048 v31 broadcasts_S256x1_S256x2048
  mulf v27 v32

/-- The exponentials of a block of scores below their row maxima. -/
def eBlk (v22 : FVec Ideal S256x2048 .f32) : FVec Ideal S256x2048 .f32 :=
  exp (subf v22 (broadcastTo S256x2048 (shapeCast S256x1 (multiReduction .maximumf [1] S256 v22 0xFF800000#32 reduces_S256x2048_S256 (.inl rfl) rfl : FVec Ideal S256 .f32) shapeCasts_S256_S256x1 : FVec Ideal S256x1 .f32) broadcasts_S256x1_S256x2048 : FVec Ideal S256x2048 .f32))

/-- The body's weights are these three steps composed. -/
theorem pay3_eq (x0 : Vec Ideal S1x256x1024 .f32) (w : Vec Ideal S1024x1024 .bf16) (b : Vec Ideal S1x1024 .f32)
    (kk : Vec Ideal S1x2048x1024 .bf16) (msk : Vec Ideal S1x256x2048 .i32) :
    k1_pay3 x0 w b kk msk = wBlk (sBlk (qBlk x0 w b) kk msk) := rfl

/-- The query block's projection at (p, d). -/
theorem qBlk_apply (x0 : Vec Ideal S1x256x1024 .f32) (w : Vec Ideal S1024x1024 .bf16) (b : Vec Ideal S1x1024 .f32) (p : Fin 256) (d : Fin 1024) :
    qBlk x0 w b (ix2 p d) = (∑ m : Fin 1024, x0 (ix3 (0 : Fin 1) p m) * w (ix2 m d)) + b (ix2 (0 : Fin 1) d) := by
  unfold qBlk
  simp only [shapeCast_self]
  show (matmul dot_S256x1024_S1024x1024_S256x1024_1_0_0_1_n_n none (truncf .bf16 (shapeCast S256x1024 x0 shapeCasts_S1x256x1024_S256x1024 : FVec Ideal S256x1024 .f32) bitsLt_bf16_f32) (w : FVec Ideal S1024x1024 .bf16) (constant S256x1024 .f32 0x00000000#32) : FVec Ideal S256x1024 .f32) (ix2 p d)
      + (broadcastTo S256x1024 (b : FVec Ideal S1x1024 .f32) broadcasts_S1x1024_S256x1024 : FVec Ideal S256x1024 .f32) (ix2 p d) = _
  rw [MatmulAt.rows256_apply, broadcastTo_1b_ab_apply]
  refine congrArg (· + b (ix2 (0 : Fin 1) d)) (Finset.sum_congr rfl fun m _ => ?_)
  show (shapeCast S256x1024 x0 shapeCasts_S1x256x1024_S256x1024 : FVec Ideal S256x1024 .f32) (ix2 p m) * w (ix2 m d) = _
  rw [shapeCast_1ab_ab_apply]

/-- The rescaled masked score at (p, j). -/
theorem sBlk_apply (q : FVec Ideal S256x1024 .bf16) (kk : Vec Ideal S1x2048x1024 .bf16) (msk : Vec Ideal S1x256x2048 .i32) (p : Fin 256) (j : Fin 2048) :
    sBlk q kk msk (ix2 p j)
      = Cert.Attn.scaleMul (Scalar.select (IntOp.cmpi .ne (msk (ix3 (0 : Fin 1) p j)) 0#32) Cert.Attn.negBig (∑ d : Fin 1024, q (ix2 p d) * kk (ix3 (0 : Fin 1) j d))) := by
  unfold sBlk Cert.Attn.scaleMul Cert.Attn.negBig
  show Scalar.select (IntOp.cmpi .ne ((shapeCast S256x2048 msk shapeCasts_S1x256x2048_S256x2048 : IVec S256x2048 32) (ix2 p j)) 0#32) (Ideal.ofBits .f32 0xCE6E6B28#32)
        ((matmul dot_S256x1024_S2048x1024_S256x2048_1_1_0_0_n_n none q (shapeCast S2048x1024 kk shapeCasts_S1x2048x1024_S2048x1024 : FVec Ideal S2048x1024 .bf16) (constant S256x2048 .f32 0x00000000#32) : FVec Ideal S256x2048 .f32) (ix2 p j))
      * Ideal.ofBits .f32 0x3D000000#32 = _
  rw [MatmulAt.scores_apply, shapeCast_1ab_ab_apply]
  refine congrArg (fun z => Scalar.select (IntOp.cmpi .ne (msk (ix3 (0 : Fin 1) p j)) 0#32) (Ideal.ofBits .f32 0xCE6E6B28#32) z * Ideal.ofBits .f32 0x3D000000#32)
    (Finset.sum_congr rfl fun d _ => ?_)
  rw [shapeCast_1ab_ab_apply]

/-- −∞ as an f32 word. -/
theorem ofBits_negInf : Ideal.ofBits .f32 0xFF800000#32 = ⊥ := by simp [Ideal.ofBits, Ideal.ieee]

/-- A row's maximum, as the body computes it and lays it along the row. -/
theorem rowMax_apply (s : FVec Ideal S256x2048 .f32) (p : Fin 256) (j : Fin 2048) :
    (broadcastTo S256x2048 (shapeCast S256x1 (multiReduction .maximumf [1] S256 s 0xFF800000#32 reduces_S256x2048_S256 (.inl rfl) rfl : FVec Ideal S256 .f32) shapeCasts_S256_S256x1 : FVec Ideal S256x1 .f32) broadcasts_S256x1_S256x2048 : FVec Ideal S256x2048 .f32) (ix2 p j)
      = Cert.Attn.rowMax (fun j' => s (ix2 p j')) := by
  rw [Cert.LibKeepdims.broadcastTo_a1_ab_apply, Cert.LibKeepdims.shapeCast_a_a1_apply]
  refine (Ideal.multiReduction_maximumf_single s 0xFF800000#32 reduces_S256x2048_S256 (.inl rfl) rfl (ix1 p)).trans ?_
  unfold Cert.Attn.rowMax
  have hb : FloatOps.ofBits (F := Ideal) .f32 0xFF800000#32 = (⊥ : EReal) := ofBits_negInf
  rw [hb]
  have hf : (s ∘ reduces_S256x2048_S256.lift (ix1 p)) = fun j' : Fin 2048 => s (ix2 p j') :=
    funext fun k => congrArg s (funext fun a => Fin.ext (by
      match a with
      | ⟨0, _⟩ => rfl
      | ⟨1, _⟩ => rfl))
  rw [hf]
  rfl

/-- The softmax weight at (p, j), in the specification's words. -/
theorem eBlk_apply (s : FVec Ideal S256x2048 .f32) (p : Fin 256) (j : Fin 2048) :
    eBlk s (ix2 p j) = Cert.Attn.expRow (fun j' => s (ix2 p j')) j := by
  unfold eBlk
  show Ideal.exp (s (ix2 p j) - (broadcastTo S256x2048 (shapeCast S256x1 (multiReduction .maximumf [1] S256 s 0xFF800000#32 reduces_S256x2048_S256 (.inl rfl) rfl : FVec Ideal S256 .f32) shapeCasts_S256_S256x1 : FVec Ideal S256x1 .f32) broadcasts_S256x1_S256x2048 : FVec Ideal S256x2048 .f32) (ix2 p j)) = _
  rw [rowMax_apply]
  rfl

/-- The softmax weights are the exponentials times the reciprocal of their row sums. -/
theorem wBlk_eq (s : FVec Ideal S256x2048 .f32) :
    wBlk s = mulf (eBlk s) (broadcastTo S256x2048 (divf (broadcast S256x1 (Scalar.ofBits (F := Ideal) .f32 0x3F800000#32) : FVec Ideal S256x1 .f32)
      (shapeCast S256x1 (multiReduction .add [1] S256 (eBlk s) 0x00000000#32 reduces_S256x2048_S256 (.inl rfl) rfl : FVec Ideal S256 .f32) shapeCasts_S256_S256x1 : FVec Ideal S256x1 .f32) : FVec Ideal S256x1 .f32) broadcasts_S256x1_S256x2048 : FVec Ideal S256x2048 .f32) := rfl

theorem wBlk_apply (s : FVec Ideal S256x2048 .f32) (p : Fin 256) (j : Fin 2048) :
    wBlk s (ix2 p j) = Cert.Attn.nrmRecip (Cert.Attn.expRow (fun j' => s (ix2 p j')) j) (Cert.Attn.rowSum (fun j' => s (ix2 p j'))) := by
  rw [wBlk_eq]
  unfold Cert.Attn.nrmRecip
  rw [mulf_apply, eBlk_apply, Cert.LibKeepdims.broadcastTo_a1_ab_apply, divf_apply, Cert.LibKeepdims.shapeCast_a_a1_apply]
  refine congrArg (fun z => Cert.Attn.expRow (fun j' => s (ix2 p j')) j * Ideal.div (Ideal.ofBits .f32 0x3F800000#32) z) ?_
  refine (Ideal.multiReduction_add_single (eBlk s) 0x00000000#32 reduces_S256x2048_S256 (.inl rfl) rfl (ix1 p)).trans ?_
  unfold Cert.Attn.rowSum
  refine Finset.sum_congr rfl fun k _ => ?_
  have hl : reduces_S256x2048_S256.lift (ix1 p) k = ix2 p k := funext fun a => Fin.ext (by
    match a with
    | ⟨0, _⟩ => rfl
    | ⟨1, _⟩ => rfl)
  rw [hl]
  exact eBlk_apply s p k

/-! ## The stored block -/

/-- The value rows as the body reads them: the leading unit axis dropped. -/
theorem pay2_apply (v : Vec Ideal S1x2048x1024 .bf16) (j : Fin 2048) (e : Fin 1024) : k1_pay2 v (ix2 j e) = v (ix3 (0 : Fin 1) j e) := by
  unfold k1_pay2
  exact shapeCast_1ab_ab_apply v _ j e

/-- The stored block at (u, p, e): the weights of row p against the value rows. -/
theorem pay1_apply (vv : FVec Ideal S2048x1024 .bf16) (wt : FVec Ideal S256x2048 .f32) (u : Fin 1) (p : Fin 256) (e : Fin 1024) :
    k1_pay1 vv wt (ix3 u p e) = ∑ j : Fin 2048, wt (ix2 p j) * vv (ix2 j e) := by
  unfold k1_pay1
  show (shapeCast S1x256x1024 (matmul dot_S256x2048_S2048x1024_S256x1024_1_0_0_1_n_n none (truncf .bf16 wt bitsLt_bf16_f32) vv (constant S256x1024 .f32 0x00000000#32) : FVec Ideal S256x1024 .f32) shapeCasts_S256x1024_S1x256x1024 : FVec Ideal S1x256x1024 .f32) (ix3 u p e) = _
  rw [shapeCast_ab_1ab_apply, MatmulAt.weighted_apply]
  rfl

end Cert.KernelIdeal.PayloadAt

end
-- ==== Proof.KernelRegion0.lean ====
/-
  What region 0 leaves in its two result arrays, as whole-array functions of the arrays it finds at its entry.

  The grid has 32 points; point t stages rows 512·t … 512·t + 511 of the flattened key and of the flattened value, and the
  whole weight matrices and bias rows, and writes back rows 512·t … 512·t + 511 of each result. Every row of a result is in
  exactly the block of point (row / 512), so each result array ends holding, at (r, q),
      (∑ k, rows[r, k] · weights[k, q]) + bias[0, q].
-/
import proofs.«420657_j64072322122239_3_alg».proof.Proof.Gen.KernelIdeal.Frame
import proofs.«420657_j64072322122239_3_alg».proof.Proof.KernelPayload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- Rows times a matrix plus a bias row, as one function on the whole [16384, 1024] array. -/
def projRows (A : S16384x1024.Idx → EReal) (Wt : S1024x1024.Idx → EReal) (B : S1x1024.Idx → EReal) : S16384x1024.Idx → EReal :=
  fun i => (∑ k : Fin 1024, A (ix2 (i 0) k) * Wt (ix2 k (i 1))) + B (ix2 (0 : Fin 1) (i 1))

/-- The grid has 32 points. -/
theorem point_lt (t : Fin cfg0.N) : t.val < 32 := lt_of_lt_of_eq t.isLt (show cfg0.N = 32 from N_0)

/-- The windows' block indices at point t: the row windows move with t, the others stay at the origin. -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- One stored entry of a projection body is the whole-array function at the entry's place in the array, when the staged
    rows are the array's rows there and the staged matrix and bias are the whole ones. -/
theorem entryK (x : Vec Ideal S512x1024 .f32) (w : Vec Ideal S1024x1024 .bf16) (b : Vec Ideal S1x1024 .f32)
    (A : S16384x1024.Idx → EReal) (Wt : S1024x1024.Idx → EReal) (B : S1x1024.Idx → EReal) (p : Fin 512) (q : Fin 1024) (r : Fin 16384)
    (hx : ∀ k : Fin 1024, x (ix2 p k) = A (ix2 r k)) (hw : ∀ j, w j = Wt j) (hb : ∀ j, b j = B j) :
    k0_pay1 x w b (ix2 p q) = projRows A Wt B (ix2 r q) := by
  rw [PayloadAt.projK_apply, hb]
  exact congrArg (· + B (ix2 (0 : Fin 1) q)) (Finset.sum_congr rfl fun k _ => by rw [hx, hw])

theorem entryV (x : Vec Ideal S512x1024 .f32) (w : Vec Ideal S1024x1024 .bf16) (b : Vec Ideal S1x1024 .f32)
    (A : S16384x1024.Idx → EReal) (Wt : S1024x1024.Idx → EReal) (B : S1x1024.Idx → EReal) (p : Fin 512) (q : Fin 1024) (r : Fin 16384)
    (hx : ∀ k : Fin 1024, x (ix2 p k) = A (ix2 r k)) (hw : ∀ j, w j = Wt j) (hb : ∀ j, b j = B j) :
    k0_pay2 x w b (ix2 p q) = projRows A Wt B (ix2 r q) := by
  rw [PayloadAt.projV_apply, hb]
  exact congrArg (· + B (ix2 (0 : Fin 1) q)) (Finset.sum_congr rfl fun k _ => by rw [hx, hw])

/-- WHAT POINT t WRITES BACK to the first result is block t of the key projection of the entry arrays. -/
theorem flushed6_eq (c : Dev nD) (t : Fin cfg0.N) :
    (dat0 V c).flushed 6 t = ((cfg0.win 6).blk t).view.read (Elt Ideal) (projRows (V c main_v0) (V c main_v5) (V c main_v9)) := by
  show (cfg0.win 6).cut (grid0.coords t) ((dat0 V c).after 6 t) = _
  rw [after0_6]
  unfold out0_6
  rw [View.canon_unit_zero zeros2]
  simp only [View.ld_unit_zero (S := S512x1024) zeros2, View.ld_unit_zero (S := S1024x1024) zeros2, View.ld_unit_zero (S := S1x1024) zeros2]
  obtain ⟨e00, e01, e10, e11, e20, e21, e30, e31, e40, e41, e50, e51, e60, e61, e70, e71⟩ := blockIdx t
  have ht := point_lt t
  funext y
  have hy0 : (y 0).val < 512 := (y 0).isLt
  have hy1 : (y 1).val < 1024 := (y 1).isLt
  show k0_pay1 (iblk0 V c 0 t) (iblk0 V c 2 t) (iblk0 V c 4 t) y
    = projRows (V c main_v0) (V c main_v5) (V c main_v9) (((cfg0.win 6).blk t).view.emb y)
  have he : ((cfg0.win 6).blk t).view.emb y = ix2 (⟨t.val * 512 + (y 0).val, by omega⟩ : Fin 16384) (⟨(y 1).val, hy1⟩ : Fin 1024) :=
    funext fun a => Fin.ext (by
      match a with
      | ⟨0, _⟩ => show win0_6.index t (0 : Fin 2) * 512 + 1 * (y 0).val = t.val * 512 + (y 0).val; rw [e60]; omega
      | ⟨1, _⟩ => show win0_6.index t (1 : Fin 2) * 1024 + 1 * (y 1).val = (y 1).val; rw [e61]; omega)
  rw [he]
  refine (congrArg (k0_pay1 (iblk0 V c 0 t) (iblk0 V c 2 t) (iblk0 V c 4 t)) (eq_ix2 y)).trans ?_
  refine entryK (iblk0 V c 0 t) (iblk0 V c 2 t) (iblk0 V c 4 t) _ _ _ ⟨(y 0).val, hy0⟩ ⟨(y 1).val, hy1⟩ _ ?_ ?_ ?_
  · intro k
    show V c main_v0 (((cfg0.win 0).blk t).view.emb (ix2 (⟨(y 0).val, hy0⟩ : Fin 512) k)) = _
    refine congrArg (V c main_v0) (funext fun a => Fin.ext ?_)
    match a with
    | ⟨0, _⟩ => show win0_0.index t (0 : Fin 2) * 512 + 1 * (y 0).val = t.val * 512 + (y 0).val; rw [e00]; omega
    | ⟨1, _⟩ => show win0_0.index t (1 : Fin 2) * 1024 + 1 * k.val = k.val; rw [e01]; omega
  · intro j
    show V c main_v5 (((cfg0.win 2).blk t).view.emb j) = V c main_v5 j
    refine congrArg (V c main_v5) (funext fun a => Fin.ext ?_)
    match a with
    | ⟨0, _⟩ => show win0_2.index t (0 : Fin 2) * 1024 + 1 * (j 0).val = (j 0).val; rw [e20]; omega
    | ⟨1, _⟩ => show win0_2.index t (1 : Fin 2) * 1024 + 1 * (j 1).val = (j 1).val; rw [e21]; omega
  · intro j
    show V c main_v9 (((cfg0.win 4).blk t).view.emb j) = V c main_v9 j
    refine congrArg (V c main_v9) (funext fun a => Fin.ext ?_)
    match a with
    | ⟨0, _⟩ => show win0_4.index t (0 : Fin 2) * 1 + 1 * (j 0).val = (j 0).val; rw [e40]; omega
    | ⟨1, _⟩ => show win0_4.index t (1 : Fin 2) * 1024 + 1 * (j 1).val = (j 1).val; rw [e41]; omega

/-- An index of the first result is in point t's block iff its row is among the 512 rows of that block. -/
theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v11_0).slice (win0_6.rect t)).set ↔ _
  rw [View.set_slice_whole, Rect.mem_set_unit]
  exact Iff.rfl

/-- Every index of the first result is written back by the point (row / 512). -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : (i 0).val / 512 < cfg0.N := by rw [show cfg0.N = 32 from N_0]; omega
  obtain ⟨e00, e01, e10, e11, e20, e21, e30, e31, e40, e41, e50, e51, e60, e61, e70, e71⟩ := blockIdx ⟨(i 0).val / 512, hN⟩
  refine ⟨⟨(i 0).val / 512, hN⟩, flush0_6 _, ?_⟩
  rw [mem_blk6]
  intro a
  match a with
  | ⟨0, _⟩ =>
    show win0_6.index ⟨(i 0).val / 512, hN⟩ (0 : Fin 2) * 512 ≤ (i 0).val ∧ (i 0).val < win0_6.index ⟨(i 0).val / 512, hN⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, hN⟩ (1 : Fin 2) * 1024 ≤ (i 1).val ∧ (i 1).val < win0_6.index ⟨(i 0).val / 512, hN⟩ (1 : Fin 2) * 1024 + 1024
    rw [e61]; omega

/-- THE FIRST RESULT after the region: the key projection of the entry arrays. -/
theorem result6 (c : Dev nD) : (dat0 V c).arrAt 6 cfg0.N = projRows (V c main_v0) (V c main_v5) (V c main_v9) :=
  (dat0 V c).arrAt_eq_of_cover 6 _ (fun t _ => flushed6_eq V c t) cover6

/-- WHAT POINT t WRITES BACK to the second result is block t of the value projection of the entry arrays. -/
theorem flushed7_eq (c : Dev nD) (t : Fin cfg0.N) :
    (dat0 V c).flushed 7 t = ((cfg0.win 7).blk t).view.read (Elt Ideal) (projRows (V c main_v1) (V c main_v7) (V c main_v10)) := by
  show (cfg0.win 7).cut (grid0.coords t) ((dat0 V c).after 7 t) = _
  rw [after0_7]
  unfold out0_7
  rw [View.canon_unit_zero zeros2]
  simp only [View.ld_unit_zero (S := S512x1024) zeros2, View.ld_unit_zero (S := S1024x1024) zeros2, View.ld_unit_zero (S := S1x1024) zeros2]
  obtain ⟨e00, e01, e10, e11, e20, e21, e30, e31, e40, e41, e50, e51, e60, e61, e70, e71⟩ := blockIdx t
  have ht := point_lt t
  funext y
  have hy0 : (y 0).val < 512 := (y 0).isLt
  have hy1 : (y 1).val < 1024 := (y 1).isLt
  show k0_pay2 (iblk0 V c 1 t) (iblk0 V c 3 t) (iblk0 V c 5 t) y
    = projRows (V c main_v1) (V c main_v7) (V c main_v10) (((cfg0.win 7).blk t).view.emb y)
  have he : ((cfg0.win 7).blk t).view.emb y = ix2 (⟨t.val * 512 + (y 0).val, by omega⟩ : Fin 16384) (⟨(y 1).val, hy1⟩ : Fin 1024) :=
    funext fun a => Fin.ext (by
      match a with
      | ⟨0, _⟩ => show win0_7.index t (0 : Fin 2) * 512 + 1 * (y 0).val = t.val * 512 + (y 0).val; rw [e70]; omega
      | ⟨1, _⟩ => show win0_7.index t (1 : Fin 2) * 1024 + 1 * (y 1).val = (y 1).val; rw [e71]; omega)
  rw [he]
  refine (congrArg (k0_pay2 (iblk0 V c 1 t) (iblk0 V c 3 t) (iblk0 V c 5 t)) (eq_ix2 y)).trans ?_
  refine entryV (iblk0 V c 1 t) (iblk0 V c 3 t) (iblk0 V c 5 t) _ _ _ ⟨(y 0).val, hy0⟩ ⟨(y 1).val, hy1⟩ _ ?_ ?_ ?_
  · intro k
    show V c main_v1 (((cfg0.win 1).blk t).view.emb (ix2 (⟨(y 0).val, hy0⟩ : Fin 512) k)) = _
    refine congrArg (V c main_v1) (funext fun a => Fin.ext ?_)
    match a with
    | ⟨0, _⟩ => show win0_1.index t (0 : Fin 2) * 512 + 1 * (y 0).val = t.val * 512 + (y 0).val; rw [e10]; omega
    | ⟨1, _⟩ => show win0_1.index t (1 : Fin 2) * 1024 + 1 * k.val = k.val; rw [e11]; omega
  · intro j
    show V c main_v7 (((cfg0.win 3).blk t).view.emb j) = V c main_v7 j
    refine congrArg (V c main_v7) (funext fun a => Fin.ext ?_)
    match a with
    | ⟨0, _⟩ => show win0_3.index t (0 : Fin 2) * 1024 + 1 * (j 0).val = (j 0).val; rw [e30]; omega
    | ⟨1, _⟩ => show win0_3.index t (1 : Fin 2) * 1024 + 1 * (j 1).val = (j 1).val; rw [e31]; omega
  · intro j
    show V c main_v10 (((cfg0.win 5).blk t).view.emb j) = V c main_v10 j
    refine congrArg (V c main_v10) (funext fun a => Fin.ext ?_)
    match a with
    | ⟨0, _⟩ => show win0_5.index t (0 : Fin 2) * 1 + 1 * (j 0).val = (j 0).val; rw [e50]; omega
    | ⟨1, _⟩ => show win0_5.index t (1 : Fin 2) * 1024 + 1 * (j 1).val = (j 1).val; rw [e51]; omega

theorem mem_blk7 (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11_1).slice (win0_7.rect t)).set ↔ _
  rw [View.set_slice_whole, Rect.mem_set_unit]
  exact Iff.rfl

theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : (i 0).val / 512 < cfg0.N := by rw [show cfg0.N = 32 from N_0]; omega
  obtain ⟨e00, e01, e10, e11, e20, e21, e30, e31, e40, e41, e50, e51, e60, e61, e70, e71⟩ := blockIdx ⟨(i 0).val / 512, hN⟩
  refine ⟨⟨(i 0).val / 512, hN⟩, flush0_7 _, ?_⟩
  rw [mem_blk7]
  intro a
  match a with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    rw [e70]; show (i 0).val / 512 * 512 ≤ (i 0).val ∧ (i 0).val < (i 0).val / 512 * 512 + 512; omega
  | ⟨1, _⟩ =>
    show win0_7.index ⟨(i 0).val / 512, hN⟩ (1 : Fin 2) * 1024 ≤ (i 1).val ∧ (i 1).val < win0_7.index ⟨(i 0).val / 512, hN⟩ (1 : Fin 2) * 1024 + 1024
    rw [e71]; omega

/-- THE SECOND RESULT after the region: the value projection of the entry arrays. -/
theorem result7 (c : Dev nD) : (dat0 V c).arrAt 7 cfg0.N = projRows (V c main_v1) (V c main_v7) (V c main_v10) :=
  (dat0 V c).arrAt_eq_of_cover 7 _ (fun t _ => flushed7_eq V c t) cover7

end Cert.KernelIdeal.Region0

end
-- ==== Proof.KernelRegion1.lean ====
/-
  What region 1 (attention) leaves in its result array, as one whole-array function of the arrays it finds at its entry.

  The grid has 64 points; point t handles batch t / 8 and the 256 query rows of block t % 8. It stages those query rows and
  the matching 256 × 2048 rows of the mask, the whole projected keys and values of the batch, the whole weight matrix and the
  bias row, and writes back the matching 256 rows of the result. Row r of batch n is in exactly the block of point
  8·n + r / 256, so the result array ends holding, at (n, r, e),
      ∑ j, weight[n, r, j] · values[n, j, e],
  the weights being the softmax over j of the masked, rescaled scores of the projected query row (n, r) against key row j.
-/
import proofs.«420657_j64072322122239_3_alg».proof.Proof.Gen.KernelIdeal.Frame
import proofs.«420657_j64072322122239_3_alg».proof.Proof.KernelPayload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The projected query row (n, r) at feature d. -/
def qRow (Xq : S8x2048x1024.Idx → EReal) (WqT : S1024x1024.Idx → EReal) (bq2 : S1x1024.Idx → EReal) (n : Fin 8) (r : Fin 2048) (d : Fin 1024) : EReal :=
  (∑ m : Fin 1024, Xq (ix3 n r m) * WqT (ix2 m d)) + bq2 (ix2 (0 : Fin 1) d)

/-- The masked, rescaled scores of query row (n, r) against every key row. -/
def sRow (Xq : S8x2048x1024.Idx → EReal) (WqT : S1024x1024.Idx → EReal) (bq2 : S1x1024.Idx → EReal) (Kp : S8x2048x1024.Idx → EReal)
    (M32 : S8x2048x2048.Idx → BitVec 32) (n : Fin 8) (r : Fin 2048) : Fin 2048 → EReal :=
  fun j => Cert.Attn.scaleMul (Scalar.select (IntOp.cmpi .ne (M32 (ix3 n r j)) 0#32) Cert.Attn.negBig (∑ d : Fin 1024, qRow Xq WqT bq2 n r d * Kp (ix3 n j d)))

/-- The attention output as one function on the whole [8, 2048, 1024] array. -/
def attnOut (Xq : S8x2048x1024.Idx → EReal) (WqT : S1024x1024.Idx → EReal) (bq2 : S1x1024.Idx → EReal) (Kp Vp : S8x2048x1024.Idx → EReal)
    (M32 : S8x2048x2048.Idx → BitVec 32) : S8x2048x1024.Idx → EReal :=
  fun i => ∑ j : Fin 2048, Cert.Attn.nrmRecip (Cert.Attn.expRow (sRow Xq WqT bq2 Kp M32 (i 0) (i 1)) j) (Cert.Attn.rowSum (sRow Xq WqT bq2 Kp M32 (i 0) (i 1)))
      * Vp (ix3 (i 0) j (i 2))

/-- The grid has 64 points. -/
theorem point_lt (t : Fin cfg1.N) : t.val < 64 := lt_of_lt_of_eq t.isLt (show cfg1.N = 64 from N_1)

/-- The windows' block indices at point t. -/
theorem blockIdx : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = t.val % 8 ∧ win1_5.index t (2 : Fin 3) = 0
    ∧ win1_6.index t (0 : Fin 3) = t.val / 8 ∧ win1_6.index t (1 : Fin 3) = t.val % 8 ∧ win1_6.index t (2 : Fin 3) = 0 :=
  (by decide +kernel : ∀ t : Fin grid1.N, _)

/-- One stored entry of the attention body is the whole-array function at the entry's place in the array, when the staged
    blocks are the arrays' rows there. -/
theorem entryAttn (x0 : Vec Ideal S1x256x1024 .f32) (w : Vec Ideal S1024x1024 .bf16) (b : Vec Ideal S1x1024 .f32)
    (kk vv : Vec Ideal S1x2048x1024 .bf16) (msk : Vec Ideal S1x256x2048 .i32)
    (Xq : S8x2048x1024.Idx → EReal) (WqT : S1024x1024.Idx → EReal) (bq2 : S1x1024.Idx → EReal) (Kp Vp : S8x2048x1024.Idx → EReal)
    (M32 : S8x2048x2048.Idx → BitVec 32) (u : Fin 1) (p : Fin 256) (e : Fin 1024) (n : Fin 8) (r : Fin 2048)
    (hx : ∀ m : Fin 1024, x0 (ix3 (0 : Fin 1) p m) = Xq (ix3 n r m)) (hw : ∀ j, w j = WqT j) (hb : ∀ j, b j = bq2 j)
    (hk : ∀ (j : Fin 2048) (d : Fin 1024), kk (ix3 (0 : Fin 1) j d) = Kp (ix3 n j d))
    (hv : ∀ (j : Fin 2048) (d : Fin 1024), vv (ix3 (0 : Fin 1) j d) = Vp (ix3 n j d))
    (hm : ∀ j : Fin 2048, msk (ix3 (0 : Fin 1) p j) = M32 (ix3 n r j)) :
    k1_pay1 (k1_pay2 vv) (k1_pay3 x0 w b kk msk) (ix3 u p e) = attnOut Xq WqT bq2 Kp Vp M32 (ix3 n r e) := by
  have hs : (fun j' : Fin 2048 => PayloadAt.sBlk (PayloadAt.qBlk x0 w b) kk msk (ix2 p j')) = sRow Xq WqT bq2 Kp M32 n r := by
    funext j'
    rw [PayloadAt.sBlk_apply, hm]
    unfold sRow
    refine congrArg (fun z => Cert.Attn.scaleMul (Scalar.select (IntOp.cmpi .ne (M32 (ix3 n r j')) 0#32) Cert.Attn.negBig z))
      (Finset.sum_congr rfl fun d _ => ?_)
    rw [PayloadAt.qBlk_apply, hk, hb]
    unfold qRow
    refine congrArg (fun z => (z + bq2 (ix2 (0 : Fin 1) d)) * Kp (ix3 n j' d)) (Finset.sum_congr rfl fun m' _ => ?_)
    rw [hx, hw]
  rw [PayloadAt.pay1_apply]
  unfold attnOut
  refine Finset.sum_congr rfl fun j _ => ?_
  rw [PayloadAt.pay3_eq, PayloadAt.wBlk_apply, PayloadAt.pay2_apply, hv, hs]

/-- WHAT POINT t WRITES BACK is block t of the attention output of the entry arrays. -/
theorem flushed6_eq (c : Dev nD) (t : Fin cfg1.N) :
    (dat1 V c).flushed 6 t = ((cfg1.win 6).blk t).view.read (Elt Ideal)
      (attnOut (V c main_arg0) (V c main_v3) (V c main_v8) (V c main_v12) (V c main_v13) (V c main_v14)) := by
  show (cfg1.win 6).cut (grid1.coords t) ((dat1 V c).after 6 t) = _
  rw [after1_6]
  unfold out1_6
  rw [View.canon_unit_zero zeros3]
  simp only [View.ld_unit_zero (S := S1x256x1024) zeros3, View.ld_unit_zero (S := S1024x1024) zeros2, View.ld_unit_zero (S := S1x1024) zeros2,
    View.ld_unit_zero (S := S1x2048x1024) zeros3, View.ld_unit_zero (S := S1x256x2048) zeros3]
  obtain ⟨e00, e01, e02, e10, e11, e20, e21, e30, e31, e32, e40, e41, e42, e50, e51, e52, e60, e61, e62⟩ := blockIdx t
  have ht := point_lt t
  funext y
  have hy0 : (y 0).val < 1 := (y 0).isLt
  have hy1 : (y 1).val < 256 := (y 1).isLt
  have hy2 : (y 2).val < 1024 := (y 2).isLt
  show k1_pay1 (k1_pay2 (iblk1 V c 4 t)) (k1_pay3 (iblk1 V c 0 t) (iblk1 V c 1 t) (iblk1 V c 2 t) (iblk1 V c 3 t) (iblk1 V c 5 t)) y
    = attnOut (V c main_arg0) (V c main_v3) (V c main_v8) (V c main_v12) (V c main_v13) (V c main_v14) (((cfg1.win 6).blk t).view.emb y)
  have he : ((cfg1.win 6).blk t).view.emb y
      = ix3 (⟨t.val / 8, by omega⟩ : Fin 8) (⟨t.val % 8 * 256 + (y 1).val, by omega⟩ : Fin 2048) (⟨(y 2).val, hy2⟩ : Fin 1024) :=
    funext fun a => Fin.ext (by
      match a with
      | ⟨0, _⟩ => show win1_6.index t (0 : Fin 3) * 1 + 1 * (y 0).val = t.val / 8; rw [e60]; omega
      | ⟨1, _⟩ => show win1_6.index t (1 : Fin 3) * 256 + 1 * (y 1).val = t.val % 8 * 256 + (y 1).val; rw [e61]; omega
      | ⟨2, _⟩ => show win1_6.index t (2 : Fin 3) * 1024 + 1 * (y 2).val = (y 2).val; rw [e62]; omega)
  rw [he]
  refine (congrArg (k1_pay1 (k1_pay2 (iblk1 V c 4 t)) (k1_pay3 (iblk1 V c 0 t) (iblk1 V c 1 t) (iblk1 V c 2 t) (iblk1 V c 3 t) (iblk1 V c 5 t))) (eq_ix3 y)).trans ?_
  refine entryAttn (iblk1 V c 0 t) (iblk1 V c 1 t) (iblk1 V c 2 t) (iblk1 V c 3 t) (iblk1 V c 4 t) (iblk1 V c 5 t) _ _ _ _ _ _
    ⟨(y 0).val, hy0⟩ ⟨(y 1).val, hy1⟩ ⟨(y 2).val, hy2⟩ _ _ ?_ ?_ ?_ ?_ ?_ ?_
  · intro m'
    show V c main_arg0 (((cfg1.win 0).blk t).view.emb (ix3 (0 : Fin 1) (⟨(y 1).val, hy1⟩ : Fin 256) m')) = _
    refine congrArg (V c main_arg0) (funext fun a => Fin.ext ?_)
    match a with
    | ⟨0, _⟩ => show win1_0.index t (0 : Fin 3) * 1 + 1 * 0 = t.val / 8; rw [e00]; omega
    | ⟨1, _⟩ => show win1_0.index t (1 : Fin 3) * 256 + 1 * (y 1).val = t.val % 8 * 256 + (y 1).val; rw [e01]; omega
    | ⟨2, _⟩ => show win1_0.index t (2 : Fin 3) * 1024 + 1 * m'.val = m'.val; rw [e02]; omega
  · intro j
    show V c main_v3 (((cfg1.win 1).blk t).view.emb j) = V c main_v3 j
    refine congrArg (V c main_v3) (funext fun a => Fin.ext ?_)
    match a with
    | ⟨0, _⟩ => show win1_1.index t (0 : Fin 2) * 1024 + 1 * (j 0).val = (j 0).val; rw [e10]; omega
    | ⟨1, _⟩ => show win1_1.index t (1 : Fin 2) * 1024 + 1 * (j 1).val = (j 1).val; rw [e11]; omega
  · intro j
    show V c main_v8 (((cfg1.win 2).blk t).view.emb j) = V c main_v8 j
    refine congrArg (V c main_v8) (funext fun a => Fin.ext ?_)
    match a with
    | ⟨0, _⟩ => show win1_2.index t (0 : Fin 2) * 1 + 1 * (j 0).val = (j 0).val; rw [e20]; omega
    | ⟨1, _⟩ => show win1_2.index t (1 : Fin 2) * 1024 + 1 * (j 1).val = (j 1).val; rw [e21]; omega
  · intro j d
    show V c main_v12 (((cfg1.win 3).blk t).view.emb (ix3 (0 : Fin 1) j d)) = _
    refine congrArg (V c main_v12) (funext fun a => Fin.ext ?_)
    match a with
    | ⟨0, _⟩ => show win1_3.index t (0 : Fin 3) * 1 + 1 * 0 = t.val / 8; rw [e30]; omega
    | ⟨1, _⟩ => show win1_3.index t (1 : Fin 3) * 2048 + 1 * j.val = j.val; rw [e31]; omega
    | ⟨2, _⟩ => show win1_3.index t (2 : Fin 3) * 1024 + 1 * d.val = d.val; rw [e32]; omega
  · intro j d
    show V c main_v13 (((cfg1.win 4).blk t).view.emb (ix3 (0 : Fin 1) j d)) = _
    refine congrArg (V c main_v13) (funext fun a => Fin.ext ?_)
    match a with
    | ⟨0, _⟩ => show win1_4.index t (0 : Fin 3) * 1 + 1 * 0 = t.val / 8; rw [e40]; omega
    | ⟨1, _⟩ => show win1_4.index t (1 : Fin 3) * 2048 + 1 * j.val = j.val; rw [e41]; omega
    | ⟨2, _⟩ => show win1_4.index t (2 : Fin 3) * 1024 + 1 * d.val = d.val; rw [e42]; omega
  · intro j
    show V c main_v14 (((cfg1.win 5).blk t).view.emb (ix3 (0 : Fin 1) (⟨(y 1).val, hy1⟩ : Fin 256) j)) = _
    refine congrArg (V c main_v14) (funext fun a => Fin.ext ?_)
    match a with
    | ⟨0, _⟩ => show win1_5.index t (0 : Fin 3) * 1 + 1 * 0 = t.val / 8; rw [e50]; omega
    | ⟨1, _⟩ => show win1_5.index t (1 : Fin 3) * 256 + 1 * (y 1).val = t.val % 8 * 256 + (y 1).val; rw [e51]; omega
    | ⟨2, _⟩ => show win1_5.index t (2 : Fin 3) * 2048 + 1 * j.val = j.val; rw [e52]; omega

/-- An index of the result is in point t's block iff each coordinate is in the block's range on its axis. -/
theorem mem_blk6 (t : Fin cfg1.N) (i : S8x2048x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v15).slice (win1_6.rect t)).set ↔ _
  rw [View.set_slice_whole, Rect.mem_set_unit]
  exact Iff.rfl

/-- Every index (n, r, e) of the result is written back by the point 8·n + r / 256. -/
theorem cover6 (i : S8x2048x1024.Idx) : ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 1024 := (i 2).isLt
  have hN : (i 0).val * 8 + (i 1).val / 256 < cfg1.N := by rw [show cfg1.N = 64 from N_1]; omega
  obtain ⟨e00, e01, e02, e10, e11, e20, e21, e30, e31, e32, e40, e41, e42, e50, e51, e52, e60, e61, e62⟩ := blockIdx ⟨(i 0).val * 8 + (i 1).val / 256, hN⟩
  refine ⟨⟨(i 0).val * 8 + (i 1).val / 256, hN⟩, flush1_6 _, ?_⟩
  rw [mem_blk6]
  intro a
  match a with
  | ⟨0, _⟩ =>
    show win1_6.index ⟨(i 0).val * 8 + (i 1).val / 256, hN⟩ (0 : Fin 3) * 1 ≤ (i 0).val ∧ (i 0).val < win1_6.index ⟨(i 0).val * 8 + (i 1).val / 256, hN⟩ (0 : Fin 3) * 1 + 1
    rw [e60]; show ((i 0).val * 8 + (i 1).val / 256) / 8 * 1 ≤ (i 0).val ∧ (i 0).val < ((i 0).val * 8 + (i 1).val / 256) / 8 * 1 + 1; omega
  | ⟨1, _⟩ =>
    show win1_6.index ⟨(i 0).val * 8 + (i 1).val / 256, hN⟩ (1 : Fin 3) * 256 ≤ (i 1).val ∧ (i 1).val < win1_6.index ⟨(i 0).val * 8 + (i 1).val / 256, hN⟩ (1 : Fin 3) * 256 + 256
    rw [e61]; show ((i 0).val * 8 + (i 1).val / 256) % 8 * 256 ≤ (i 1).val ∧ (i 1).val < ((i 0).val * 8 + (i 1).val / 256) % 8 * 256 + 256; omega
  | ⟨2, _⟩ =>
    show win1_6.index ⟨(i 0).val * 8 + (i 1).val / 256, hN⟩ (2 : Fin 3) * 1024 ≤ (i 2).val ∧ (i 2).val < win1_6.index ⟨(i 0).val * 8 + (i 1).val / 256, hN⟩ (2 : Fin 3) * 1024 + 1024
    rw [e62]; omega

/-- THE RESULT after the region: the attention output of the entry arrays. -/
theorem result6 (c : Dev nD) :
    (dat1 V c).arrAt 6 cfg1.N = attnOut (V c main_arg0) (V c main_v3) (V c main_v8) (V c main_v12) (V c main_v13) (V c main_v14) :=
  (dat1 V c).arrAt_eq_of_cover 6 _ (fun t _ => flushed6_eq V c t) cover6

end Cert.KernelIdeal.Region1

end
-- ==== Proof.KernelHostA.lean ====
/-
  What region 0 (the key and value projections) finds in its operand arrays: each is a re-laying of an argument array.
    rows    [16384, 1024]  : row n·2048 + s of the flattened key (value) is row s of batch n;
    weights [1024, 1024]   : the transposed weight matrix, entry (k, q) = W[q, k];
    bias    [1, 1024]      : the bias as one row.
-/
import proofs.«420657_j64072322122239_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostAt

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- Row n·2048 + s of the flattened array, from its two coordinates. -/
def flatRow (n : Fin 8) (s : Fin 2048) : Fin 16384 := ⟨n.val * 2048 + s.val, by have := n.isLt; have := s.isLt; omega⟩

/-- The flattened key: row n·2048 + s is key[n, s, ·]. -/
theorem entry0_keyRows (c : Dev nD) (n : Fin 8) (s : Fin 2048) (k : Fin 1024) :
    (V1 m ρ c main_v0 : S16384x1024.Idx → EReal) (ix2 (flatRow n s) k) = m ((c : Thread nD τ).loc main_arg1) (ix3 n s k) := by
  show StableHlo.after hostOps0 (W0 m ρ c) (Proc.devRef .tc main_v0) _ = _
  after_results
  -- the buffer is the argument's elements in row-major order under the new shape; the element type is unchanged
  show shapeCast S16384x1024 (m ((c : Thread nD τ).loc main_arg1) : S8x2048x1024.Idx → EReal)
    shapeCasts_S8x2048x1024_S16384x1024 (ix2 (flatRow n s) k) = _
  refine shapeCast_apply _ _ _ _ ?_
  -- both indices sit at row-major position (n·2048 + s)·1024 + k
  show (S8x2048x1024.rowMajor (ix3 n s k)).val = (S16384x1024.rowMajor (ix2 (flatRow n s) k)).val
  rw [Shape.rowMajor_val_three, Shape.rowMajor_val_two]
  show (n.val * 2048 + s.val) * 1024 + k.val = (n.val * 2048 + s.val) * 1024 + k.val
  rfl

/-- The flattened value: row n·2048 + s is value[n, s, ·]. -/
theorem entry0_valueRows (c : Dev nD) (n : Fin 8) (s : Fin 2048) (k : Fin 1024) :
    (V1 m ρ c main_v1 : S16384x1024.Idx → EReal) (ix2 (flatRow n s) k) = m ((c : Thread nD τ).loc main_arg2) (ix3 n s k) := by
  show StableHlo.after hostOps0 (W0 m ρ c) (Proc.devRef .tc main_v1) _ = _
  after_results
  -- the buffer is the argument's elements in row-major order under the new shape; the element type is unchanged
  show shapeCast S16384x1024 (m ((c : Thread nD τ).loc main_arg2) : S8x2048x1024.Idx → EReal)
    shapeCasts_S8x2048x1024_S16384x1024 (ix2 (flatRow n s) k) = _
  refine shapeCast_apply _ _ _ _ ?_
  -- both indices sit at row-major position (n·2048 + s)·1024 + k
  show (S8x2048x1024.rowMajor (ix3 n s k)).val = (S16384x1024.rowMajor (ix2 (flatRow n s) k)).val
  rw [Shape.rowMajor_val_three, Shape.rowMajor_val_two]
  show (n.val * 2048 + s.val) * 1024 + k.val = (n.val * 2048 + s.val) * 1024 + k.val
  rfl

/-- The key projection's weights, transposed: entry (k, q) is Wk[q, k]. -/
theorem entry0_keyWeights (c : Dev nD) (k q : Fin 1024) :
    (V1 m ρ c main_v5 : S1024x1024.Idx → EReal) (ix2 k q) = m ((c : Thread nD τ).loc main_arg6) (ix2 q k) := by
  show StableHlo.after hostOps0 (W0 m ρ c) (Proc.devRef .tc main_v5) _ = _
  after_results
  -- the buffer is the transposed argument narrowed to bf16; on extended reals the narrowing changes no entry
  show transpose S1024x1024 [1, 0] (m ((c : Thread nD τ).loc main_arg6) : S1024x1024.Idx → EReal)
    transposes_S1024x1024_S1024x1024_1_0 (ix2 k q) = _
  exact transpose_ix2_apply _ _ k q

/-- The value projection's weights, transposed: entry (k, q) is Wv[q, k]. -/
theorem entry0_valueWeights (c : Dev nD) (k q : Fin 1024) :
    (V1 m ρ c main_v7 : S1024x1024.Idx → EReal) (ix2 k q) = m ((c : Thread nD τ).loc main_arg8) (ix2 q k) := by
  show StableHlo.after hostOps0 (W0 m ρ c) (Proc.devRef .tc main_v7) _ = _
  after_results
  -- the buffer is the transposed argument narrowed to bf16; on extended reals the narrowing changes no entry
  show transpose S1024x1024 [1, 0] (m ((c : Thread nD τ).loc main_arg8) : S1024x1024.Idx → EReal)
    transposes_S1024x1024_S1024x1024_1_0 (ix2 k q) = _
  exact transpose_ix2_apply _ _ k q

/-- The key projection's bias as a row. -/
theorem entry0_keyBias (c : Dev nD) (u : Fin 1) (q : Fin 1024) :
    (V1 m ρ c main_v9 : S1x1024.Idx → EReal) (ix2 u q) = m ((c : Thread nD τ).loc main_arg7) (ix1 q) := by
  show StableHlo.after hostOps0 (W0 m ρ c) (Proc.devRef .tc main_v9) _ = _
  after_results
  -- the buffer is the argument's elements under the shape with a leading unit axis
  show shapeCast S1x1024 (m ((c : Thread nD τ).loc main_arg7) : S1024.Idx → EReal) shapeCasts_S1024_S1x1024 (ix2 u q) = _
  exact shapeCast_a_1a_apply _ _ u q

/-- The value projection's bias as a row. -/
theorem entry0_valueBias (c : Dev nD) (u : Fin 1) (q : Fin 1024) :
    (V1 m ρ c main_v10 : S1x1024.Idx → EReal) (ix2 u q) = m ((c : Thread nD τ).loc main_arg9) (ix1 q) := by
  show StableHlo.after hostOps0 (W0 m ρ c) (Proc.devRef .tc main_v10) _ = _
  after_results
  -- the buffer is the argument's elements under the shape with a leading unit axis
  show shapeCast S1x1024 (m ((c : Thread nD τ).loc main_arg9) : S1024.Idx → EReal) shapeCasts_S1024_S1x1024 (ix2 u q) = _
  exact shapeCast_a_1a_apply _ _ u q

end Cert.KernelIdeal.HostAt

end
-- ==== Proof.KernelHostB.lean ====
/-
  What region 1 (attention) finds in its operand arrays: the query as launched; the query projection's transposed weights
  and its bias as a row; the two arrays region 0 left (the projected keys and values), un-flattened back to
  batch × row × feature; and the mask widened from one bit to a 32-bit word.
-/
import proofs.«420657_j64072322122239_3_alg».proof.Proof.Gen.KernelIdeal.Frame
import proofs.«420657_j64072322122239_3_alg».proof.Proof.KernelHostA
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostAt

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The operations between the two regions write only their three results: any other buffer is as region 0 left it. -/
private theorem W3_of_ne (c : Dev nD) (b : Ref sig .tc) (h12 : b ≠ main_v12) (h13 : b ≠ main_v13) (h14 : b ≠ main_v14) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.unary_writes, StableHlo.reshape_writes, Finset.mem_singleton]
    repeat' apply And.intro
    all_goals first
      | exact StableHlo.devRef_ne_of_ne h12
      | exact StableHlo.devRef_ne_of_ne h13
      | exact StableHlo.devRef_ne_of_ne h14))

/-- An argument that no operation before region 0 writes is as launched when region 0 is entered. -/
private theorem W1_of_arg (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) (h8 : b ≠ main_v8) (h9 : b ≠ main_v9) (h10 : b ≠ main_v10) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals first
      | exact StableHlo.devRef_ne_of_ne h0 | exact StableHlo.devRef_ne_of_ne h1 | exact StableHlo.devRef_ne_of_ne h2
      | exact StableHlo.devRef_ne_of_ne h3 | exact StableHlo.devRef_ne_of_ne h4 | exact StableHlo.devRef_ne_of_ne h5
      | exact StableHlo.devRef_ne_of_ne h6 | exact StableHlo.devRef_ne_of_ne h7 | exact StableHlo.devRef_ne_of_ne h8
      | exact StableHlo.devRef_ne_of_ne h9 | exact StableHlo.devRef_ne_of_ne h10))

/-- The query projection's weights at region 1's entry are what the operations before region 0 left. -/
private theorem V3_v3 (c : Dev nD) :
    V3 m ρ c main_v3 = StableHlo.after hostOps0 (W0 m ρ c) (Proc.devRef .tc main_v3) :=
  calc V3 m ρ c main_v3
    _ = W2 m ρ c (Proc.devRef .tc main_v3) := W3_of_ne m ρ c main_v3 (by decide) (by decide) (by decide)
    _ = W1 m ρ c (Proc.devRef .tc main_v3) := W2_of_ne m ρ c main_v3 (by decide)

/-- The query projection's bias row at region 1's entry is what the operations before region 0 left. -/
private theorem V3_v8 (c : Dev nD) :
    V3 m ρ c main_v8 = StableHlo.after hostOps0 (W0 m ρ c) (Proc.devRef .tc main_v8) :=
  calc V3 m ρ c main_v8
    _ = W2 m ρ c (Proc.devRef .tc main_v8) := W3_of_ne m ρ c main_v8 (by decide) (by decide) (by decide)
    _ = W1 m ρ c (Proc.devRef .tc main_v8) := W2_of_ne m ρ c main_v8 (by decide)

/-- Un-flattening [16384, 1024] to [8, 2048, 1024]: entry (n, s, d) is the operand's entry (n·2048 + s, d), the two
    having one row-major position (n·2048 + s)·1024 + d. -/
private theorem unflatten_apply (x : S16384x1024.Idx → EReal) (n : Fin 8) (s : Fin 2048) (d : Fin 1024) :
    shapeCast S8x2048x1024 x shapeCasts_S16384x1024_S8x2048x1024 (ix3 n s d) = x (ix2 (flatRow n s) d) :=
  shapeCast_apply x _ (ix3 n s d) (ix2 (flatRow n s) d) (by
    rw [Shape.rowMajor_val_two, Shape.rowMajor_val_three]
    rfl)

/-- The mask argument is as launched when region 0 is left: nothing before then writes it. -/
private theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_arg m ρ c main_arg3 (by decide) (by decide) (by decide) (by decide)
          (by decide) (by decide) (by decide) (by decide) (by decide) (by decide) (by decide)
    _ = m ((c : Thread nD τ).loc main_arg3) := rfl

/-- The query is as launched. -/
theorem entry1_query (c : Dev nD) : V3 m ρ c main_arg0 = m ((c : Thread nD τ).loc main_arg0) := by
  calc V3 m ρ c main_arg0
    _ = W2 m ρ c (Proc.devRef .tc main_arg0) := W3_of_ne m ρ c main_arg0 (by decide) (by decide) (by decide)
    _ = W1 m ρ c (Proc.devRef .tc main_arg0) := W2_of_ne m ρ c main_arg0 (by decide)
    _ = W0 m ρ c (Proc.devRef .tc main_arg0) := W1_of_arg m ρ c main_arg0 (by decide) (by decide) (by decide) (by decide)
          (by decide) (by decide) (by decide) (by decide) (by decide) (by decide) (by decide)
    _ = m ((c : Thread nD τ).loc main_arg0) := rfl

/-- The query projection's weights, transposed: entry (k, q) is Wq[q, k]. -/
theorem entry1_queryWeights (c : Dev nD) (k q : Fin 1024) :
    (V3 m ρ c main_v3 : S1024x1024.Idx → EReal) (ix2 k q) = m ((c : Thread nD τ).loc main_arg4) (ix2 q k) := by
  rw [V3_v3]
  after_results
  rw [ValueIdx.truncf_apply]
  exact transpose_ix2_apply _ _ k q

/-- The query projection's bias as a row. -/
theorem entry1_queryBias (c : Dev nD) (u : Fin 1) (q : Fin 1024) :
    (V3 m ρ c main_v8 : S1x1024.Idx → EReal) (ix2 u q) = m ((c : Thread nD τ).loc main_arg5) (ix1 q) := by
  rw [V3_v8]
  after_results
  exact shapeCast_a_1a_apply _ _ u q

/-- The projected keys, un-flattened: entry (n, s, d) is region 0's first result at row n·2048 + s. -/
theorem entry1_keys (c : Dev nD) (n : Fin 8) (s : Fin 2048) (d : Fin 1024) :
    (V3 m ρ c main_v12 : S8x2048x1024.Idx → EReal) (ix3 n s d)
      = ((dat0 (V1 m ρ) c).arrAt 6 cfg0.N : S16384x1024.Idx → EReal) (ix2 (flatRow n s) d) := by
  have hW : W2 m ρ c (Proc.devRef .tc main_v11_0) = (dat0 (V1 m ρ) c).arrAt 6 cfg0.N := W2_arr m ρ c 6
  show StableHlo.after hostOps1 (W2 m ρ c) (Proc.devRef .tc main_v12) (ix3 n s d) = _
  after_results
  show shapeCast S8x2048x1024 (W2 m ρ c (Proc.devRef .tc main_v11_0)) shapeCasts_S16384x1024_S8x2048x1024 (ix3 n s d) = _
  rw [hW]
  exact unflatten_apply _ n s d

/-- The projected values, un-flattened: entry (n, s, e) is region 0's second result at row n·2048 + s. -/
theorem entry1_values (c : Dev nD) (n : Fin 8) (s : Fin 2048) (e : Fin 1024) :
    (V3 m ρ c main_v13 : S8x2048x1024.Idx → EReal) (ix3 n s e)
      = ((dat0 (V1 m ρ) c).arrAt 7 cfg0.N : S16384x1024.Idx → EReal) (ix2 (flatRow n s) e) := by
  have hW : W2 m ρ c (Proc.devRef .tc main_v11_1) = (dat0 (V1 m ρ) c).arrAt 7 cfg0.N := W2_arr m ρ c 7
  show StableHlo.after hostOps1 (W2 m ρ c) (Proc.devRef .tc main_v13) (ix3 n s e) = _
  after_results
  show shapeCast S8x2048x1024 (W2 m ρ c (Proc.devRef .tc main_v11_1)) shapeCasts_S16384x1024_S8x2048x1024 (ix3 n s e) = _
  rw [hW]
  exact unflatten_apply _ n s e

/-- The mask as 32-bit words: each bit zero-extended. -/
theorem entry1_mask (c : Dev nD) (i : S8x2048x2048.Idx) :
    (V3 m ρ c main_v14 : S8x2048x2048.Idx → BitVec 32) i = (m ((c : Thread nD τ).loc main_arg3) i : BitVec 1).setWidth 32 := by
  show StableHlo.after hostOps1 (W2 m ρ c) (Proc.devRef .tc main_v14) i = _
  after_results
  rw [extui_apply, W2_arg3]

end Cert.KernelIdeal.HostAt

end
-- ==== Proof.KernelValue.lean ====
/-
  The idealized kernel's result as a function of its ten launched arguments: self-attention as Attention.lean states it, with
  the kernel's own spellings of the rescaling (product with 2⁻⁵) and of the normalization (product with the reciprocal of the
  row sum).

  The result buffer at the end of the run is what region 1 leaves (KernelRegion1.lean), a function of region 1's entry arrays;
  those are host re-layings of the arguments and of what region 0 leaves (KernelHostA.lean, KernelHostB.lean), and what region 0
  leaves is the key and value projections of the flattened arguments (KernelRegion0.lean). Substituting one into the other,
  index by index: a projection over the transposed weights [k, q] ↦ W[q, k] is the projection over W itself; rows flattened to
  n·2048 + s and un-flattened again are row s of batch n; the mask bit widened to a word and compared against zero is the bit.
-/
import proofs.«420657_j64072322122239_3_alg».proof.Proof.KernelRegion0
import proofs.«420657_j64072322122239_3_alg».proof.Proof.KernelRegion1
import proofs.«420657_j64072322122239_3_alg».proof.Proof.KernelHostA
import proofs.«420657_j64072322122239_3_alg».proof.Proof.KernelHostB
import proofs.«420657_j64072322122239_3_alg».proof.Proof.Attention

set_option maxRecDepth 16384

noncomputable section

namespace Cert.KernelIdeal.ResultValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The ten arguments as launched, as plain functions of an index. -/
abbrev aQuery (c : Dev nD) : S8x2048x1024.Idx → EReal := m ((c : Thread nD τ).loc main_arg0)
abbrev aKey (c : Dev nD) : S8x2048x1024.Idx → EReal := m ((c : Thread nD τ).loc main_arg1)
abbrev aValue (c : Dev nD) : S8x2048x1024.Idx → EReal := m ((c : Thread nD τ).loc main_arg2)
abbrev aMask (c : Dev nD) : S8x2048x2048.Idx → BitVec 1 := m ((c : Thread nD τ).loc main_arg3)
abbrev aWq (c : Dev nD) : S1024x1024.Idx → EReal := m ((c : Thread nD τ).loc main_arg4)
abbrev aBq (c : Dev nD) : S1024.Idx → EReal := m ((c : Thread nD τ).loc main_arg5)
abbrev aWk (c : Dev nD) : S1024x1024.Idx → EReal := m ((c : Thread nD τ).loc main_arg6)
abbrev aBk (c : Dev nD) : S1024.Idx → EReal := m ((c : Thread nD τ).loc main_arg7)
abbrev aWv (c : Dev nD) : S1024x1024.Idx → EReal := m ((c : Thread nD τ).loc main_arg8)
abbrev aBv (c : Dev nD) : S1024.Idx → EReal := m ((c : Thread nD τ).loc main_arg9)

/-- Region 0's entry arrays, named at their literal types. -/
abbrev eKeyRows (c : Dev nD) : S16384x1024.Idx → EReal := V1 m ρ c main_v0
abbrev eValueRows (c : Dev nD) : S16384x1024.Idx → EReal := V1 m ρ c main_v1
abbrev eKeyWts (c : Dev nD) : S1024x1024.Idx → EReal := V1 m ρ c main_v5
abbrev eValueWts (c : Dev nD) : S1024x1024.Idx → EReal := V1 m ρ c main_v7
abbrev eKeyBias (c : Dev nD) : S1x1024.Idx → EReal := V1 m ρ c main_v9
abbrev eValueBias (c : Dev nD) : S1x1024.Idx → EReal := V1 m ρ c main_v10
/-- Region 1's entry arrays, named at their literal types. -/
abbrev eQ (c : Dev nD) : S8x2048x1024.Idx → EReal := V3 m ρ c main_arg0
abbrev eWq (c : Dev nD) : S1024x1024.Idx → EReal := V3 m ρ c main_v3
abbrev eBq (c : Dev nD) : S1x1024.Idx → EReal := V3 m ρ c main_v8
abbrev eK (c : Dev nD) : S8x2048x1024.Idx → EReal := V3 m ρ c main_v12
abbrev eV (c : Dev nD) : S8x2048x1024.Idx → EReal := V3 m ρ c main_v13
abbrev eM (c : Dev nD) : S8x2048x2048.Idx → BitVec 32 := V3 m ρ c main_v14

/-- A one-bit word widened to 32 bits differs from zero exactly when the bit is set. -/
theorem ne_zero_of_widened (b : BitVec 1) : IntOp.cmpi .ne (b.setWidth 32) 0#32 = b := by
  by_cases h1 : b = 1#1
  · subst h1; decide
  · have h0 := ValueIdx.eq_zero_of_ne_one h1
    subst h0; decide

/-- The projected keys region 1 reads are the key projection of the launched key, weights and bias. -/
theorem keysAt (c : Dev nD) (n : Fin 8) (s : Fin 2048) (d : Fin 1024) :
    eK m ρ c (ix3 n s d) = Cert.Attn.proj (aKey m c) (aWk m c) (aBk m c) n s d := by
  refine (HostAt.entry1_keys m ρ c n s d).trans ?_
  rw [Region0.result6]
  show Region0.projRows (eKeyRows m ρ c) (eKeyWts m ρ c) (eKeyBias m ρ c) (ix2 (HostAt.flatRow n s) d) = _
  unfold Region0.projRows Cert.Attn.proj
  show (∑ k : Fin 1024, eKeyRows m ρ c (ix2 (HostAt.flatRow n s) k) * eKeyWts m ρ c (ix2 k d)) + eKeyBias m ρ c (ix2 (0 : Fin 1) d)
      = (∑ k : Fin 1024, aKey m c (ix3 n s k) * aWk m c (ix2 d k)) + aBk m c (ix1 d)
  refine congrArg₂ (· + ·) (Finset.sum_congr rfl fun k _ => ?_) (HostAt.entry0_keyBias m ρ c 0 d)
  exact congrArg₂ (· * ·) (HostAt.entry0_keyRows m ρ c n s k) (HostAt.entry0_keyWeights m ρ c k d)

/-- The projected values region 1 reads are the value projection of the launched value, weights and bias. -/
theorem valuesAt (c : Dev nD) (n : Fin 8) (s : Fin 2048) (e : Fin 1024) :
    eV m ρ c (ix3 n s e) = Cert.Attn.proj (aValue m c) (aWv m c) (aBv m c) n s e := by
  refine (HostAt.entry1_values m ρ c n s e).trans ?_
  rw [Region0.result7]
  show Region0.projRows (eValueRows m ρ c) (eValueWts m ρ c) (eValueBias m ρ c) (ix2 (HostAt.flatRow n s) e) = _
  unfold Region0.projRows Cert.Attn.proj
  show (∑ k : Fin 1024, eValueRows m ρ c (ix2 (HostAt.flatRow n s) k) * eValueWts m ρ c (ix2 k e)) + eValueBias m ρ c (ix2 (0 : Fin 1) e)
      = (∑ k : Fin 1024, aValue m c (ix3 n s k) * aWv m c (ix2 e k)) + aBv m c (ix1 e)
  refine congrArg₂ (· + ·) (Finset.sum_congr rfl fun k _ => ?_) (HostAt.entry0_valueBias m ρ c 0 e)
  exact congrArg₂ (· * ·) (HostAt.entry0_valueRows m ρ c n s k) (HostAt.entry0_valueWeights m ρ c k e)

/-- The query row region 1 projects in its body is the query projection of the launched query, weights and bias. -/
theorem queryAt (c : Dev nD) (n : Fin 8) (r : Fin 2048) (d : Fin 1024) :
    Region1.qRow (eQ m ρ c) (eWq m ρ c) (eBq m ρ c) n r d = Cert.Attn.proj (aQuery m c) (aWq m c) (aBq m c) n r d := by
  unfold Region1.qRow Cert.Attn.proj
  refine congrArg₂ (· + ·) (Finset.sum_congr rfl fun k _ => ?_) (HostAt.entry1_queryBias m ρ c 0 d)
  exact congrArg₂ (· * ·) (congrFun (HostAt.entry1_query m ρ c) (ix3 n r k)) (HostAt.entry1_queryWeights m ρ c k d)

/-- The row of rescaled masked scores region 1 forms is the specification's. -/
theorem rowAt (c : Dev nD) (n : Fin 8) (r : Fin 2048) :
    Region1.sRow (eQ m ρ c) (eWq m ρ c) (eBq m ρ c) (eK m ρ c) (eM m ρ c) n r
      = Cert.Attn.scoreRow Cert.Attn.scaleMul (aQuery m c) (aKey m c) (aMask m c) (aWq m c) (aBq m c) (aWk m c) (aBk m c) n r := by
  funext j
  unfold Region1.sRow Cert.Attn.scoreRow Cert.Attn.score
  have hm : IntOp.cmpi .ne (eM m ρ c (ix3 n r j)) 0#32 = aMask m c (ix3 n r j) :=
    (congrArg (fun z => IntOp.cmpi .ne z 0#32) (HostAt.entry1_mask m ρ c (ix3 n r j))).trans (ne_zero_of_widened _)
  rw [hm]
  refine congrArg (fun z => Cert.Attn.scaleMul (Scalar.select (aMask m c (ix3 n r j)) Cert.Attn.negBig z)) (Finset.sum_congr rfl fun d _ => ?_)
  rw [queryAt, keysAt]

/-- THE RESULT: the buffer @main returns, at the end of the run, is self-attention of the launched arguments. -/
theorem result_eq (c : Dev nD) :
    (W4 m ρ c (Proc.devRef .tc main_v15) : S8x2048x1024.Idx → EReal)
      = Cert.Attn.attn Cert.Attn.scaleMul Cert.Attn.nrmRecip (aQuery m c) (aKey m c) (aValue m c) (aMask m c) (aWq m c) (aBq m c) (aWk m c) (aBk m c) (aWv m c) (aBv m c) := by
  refine (W4_arr m ρ c 6).trans ?_
  rw [Region1.result6]
  show Region1.attnOut (eQ m ρ c) (eWq m ρ c) (eBq m ρ c) (eK m ρ c) (eV m ρ c) (eM m ρ c) = _
  funext i
  obtain ⟨n, r, e, rfl⟩ : ∃ (n : Fin 8) (r : Fin 2048) (e : Fin 1024), i = ix3 n r e := ⟨i 0, i 1, i 2, eq_ix3 i⟩
  show (∑ j : Fin 2048, Cert.Attn.nrmRecip (Cert.Attn.expRow (Region1.sRow (eQ m ρ c) (eWq m ρ c) (eBq m ρ c) (eK m ρ c) (eM m ρ c) n r) j)
          (Cert.Attn.rowSum (Region1.sRow (eQ m ρ c) (eWq m ρ c) (eBq m ρ c) (eK m ρ c) (eM m ρ c) n r)) * eV m ρ c (ix3 n j e))
      = ∑ j : Fin 2048, Cert.Attn.nrmRecip (Cert.Attn.expRow (Cert.Attn.scoreRow Cert.Attn.scaleMul (aQuery m c) (aKey m c) (aMask m c) (aWq m c) (aBq m c) (aWk m c) (aBk m c) n r) j)
          (Cert.Attn.rowSum (Cert.Attn.scoreRow Cert.Attn.scaleMul (aQuery m c) (aKey m c) (aMask m c) (aWq m c) (aBq m c) (aWk m c) (aBk m c) n r))
        * Cert.Attn.proj (aValue m c) (aWv m c) (aBv m c) n j e
  rw [rowAt]
  refine Finset.sum_congr rfl fun j _ => ?_
  rw [valuesAt]

end Cert.KernelIdeal.ResultValue

end
-- ==== Proof.lean ====
/-
  A Pallas self-attention kernel against its jnp reference, equal over the extended reals.

  Both programs compute, for queries, keys and values of shape [8, 2048, 1024], a boolean mask [8, 2048, 2048] and three linear
  layers (weights [1024, 1024], biases [1024]):
      Q, K, V = the three projections x · Wᵀ + b;
      s[n, i, j] = (mask[n, i, j] ? −10⁹ : ∑ d, Q[n, i, d] · K[n, j, d]), rescaled by 1/√1024 = 2⁻⁵;
      y[n, i, e] = ∑ j, softmax_j (s[n, i, ·])[j] · V[n, j, e].
  The kernel computes K and V in one launch (512 rows at a time) and Q, the scores, the softmax and the weighted sum in a
  second one (256 query rows of one batch at a time); the reference is one host program. On the extended reals a change of float
  format is the identity and every sum is exact, so the two differ in two places only:
    the rescaling — the kernel multiplies by the word 2⁻⁵, the reference divides by the square root of the word 1024: one
      function on every extended real (AttentionLaws.scaleMul_eq_scaleDiv);
    the normalization — the kernel multiplies an exponential by 1 / (row sum), the reference divides it by the row sum: equal
      wherever the row sum is not zero, and it is a positive real as soon as the scores are real numbers, which the precondition
      (every float input finite) gives (AttentionLaws.attn_recip_eq_div, FiniteInputs.real_of_pre).
  The kernel's result as `attn scaleMul nrmRecip` of the arguments is KernelValue.result_eq over the run KernelRun.run_result;
  the reference's as `attn scaleDiv nrmDiv` is RefAttention.result_eq over its generated run. The three frames are the generated
  ones; the idealization rewrote nothing, so `preserves` is trivial.
-/
import proofs.«420657_j64072322122239_3_alg».proof.Defs
import proofs.«420657_j64072322122239_3_alg».proof.Proof.Gen.Kernel
import proofs.«420657_j64072322122239_3_alg».proof.Proof.Gen.Kernel.Skeleton
import proofs.«420657_j64072322122239_3_alg».proof.Proof.Gen.Kernel.Launch
import proofs.«420657_j64072322122239_3_alg».proof.Proof.Gen.Kernel.Points
import proofs.«420657_j64072322122239_3_alg».proof.Proof.Gen.Kernel.Frame
import proofs.«420657_j64072322122239_3_alg».proof.Proof.Gen.KernelIdeal
import proofs.«420657_j64072322122239_3_alg».proof.Proof.Gen.KernelIdeal.Skeleton
import proofs.«420657_j64072322122239_3_alg».proof.Proof.Gen.KernelIdeal.Launch
import proofs.«420657_j64072322122239_3_alg».proof.Proof.Gen.KernelIdeal.Points
import proofs.«420657_j64072322122239_3_alg».proof.Proof.Gen.KernelIdeal.Frame
import proofs.«420657_j64072322122239_3_alg».proof.Proof.Gen.ReferenceIdeal
import proofs.«420657_j64072322122239_3_alg».proof.Proof.Gen.Pre_finite_inputs
import proofs.«420657_j64072322122239_3_alg».proof.Proof.Gen.ReferenceIdeal.Run
import proofs.«420657_j64072322122239_3_alg».proof.Proof.Gen.ReferenceIdeal.Read
import proofs.«420657_j64072322122239_3_alg».proof.Proof.Attention
import proofs.«420657_j64072322122239_3_alg».proof.Proof.AttentionLaws
import proofs.«420657_j64072322122239_3_alg».proof.Proof.FiniteInputs
import proofs.«420657_j64072322122239_3_alg».proof.Proof.RefAttention
import proofs.«420657_j64072322122239_3_alg».proof.Proof.KernelRun
import proofs.«420657_j64072322122239_3_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at self-attention of the arguments: the kernel's run gives it in the kernel's
    spelling, the reference's in the reference's, and the two spellings agree on finite inputs. -/
theorem algebraic : Cert.algebraic_KernelIdeal_ReferenceIdeal := by
  intro m ρ m' ρ' hpre hagree
  refine ⟨fun c => Cert.KernelIdeal.Gen.W4 m ρ c (Proc.devRef .tc Cert.KernelIdeal.main_v15), Cert.KernelIdeal.RunValue.run_result (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v28_eq, Cert.ReferenceIdeal.RefValue.result_eq]
  obtain ⟨h0, h1, h2, h3, h4, h5, h6, h7, h8, h9⟩ := hagree c
  rw [h0, h1, h2, h3, h4, h5, h6, h7, h8, h9]
  refine Eq.trans ?_ (Cert.KernelIdeal.ResultValue.result_eq m ρ c).symm
  rw [← Cert.Attn.scaleMul_eq_scaleDiv]
  obtain ⟨r0, r1, r4, r5, r6, r7⟩ := Cert.FiniteInputs.real_of_pre _ _ _ _ _ _ _ _ _ _ (hpre c)
  exact (Cert.Attn.attn_recip_eq_div _ _ _ _ _ _ _ _ _ _ r0 r1 r4 r5 r6 r7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
